-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S256x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S_ : Shape := ⟨0, ![]⟩
abbrev S10240x128 : Shape := ⟨2, ![10240, 128]⟩
abbrev S1x640000 : Shape := ⟨2, ![1, 640000]⟩
abbrev S640000 : Shape := ⟨1, ![640000]⟩
abbrev S1x1024 : Shape := ⟨2, ![1, 1024]⟩
abbrev S1024x128 : Shape := ⟨2, ![1024, 128]⟩
abbrev S1280x1024 : Shape := ⟨2, ![1280, 1024]⟩
abbrev S1280x128 : Shape := ⟨2, ![1280, 128]⟩
abbrev S10000 : Shape := ⟨1, ![10000]⟩
abbrev S640000x1 : Shape := ⟨2, ![640000, 1]⟩
abbrev S10240 : Shape := ⟨1, ![10240]⟩
abbrev S10240x1 : Shape := ⟨2, ![10240, 1]⟩
abbrev S128x128 : Shape := ⟨2, ![128, 128]⟩
abbrev S1x128 : Shape := ⟨2, ![1, 128]⟩
abbrev S1280x1 : Shape := ⟨2, ![1280, 1]⟩

abbrev nBuf : Space → Nat
  | .hbm => 43
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .bf16⟩
  | .hbm, ⟨7, _⟩ => ⟨S_, .i32⟩
  | .hbm, ⟨8, _⟩ => ⟨S_, .bf16⟩
  | .hbm, ⟨9, _⟩ => ⟨S10240x128, .bf16⟩
  | .hbm, ⟨10, _⟩ => ⟨S_, .i32⟩
  | .hbm, ⟨11, _⟩ => ⟨S_, .f32⟩
  | .hbm, ⟨12, _⟩ => ⟨S10240x128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S10240x128, .f32⟩
  | .hbm, ⟨20, _⟩ => ⟨S_, .f32⟩
  | .hbm, ⟨21, _⟩ => ⟨S640000, .f32⟩
  | .hbm, ⟨22, _⟩ => ⟨S640000, .i32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .i32⟩
  | .hbm, ⟨28, _⟩ => ⟨S_, .f32⟩
  | .hbm, ⟨29, _⟩ => ⟨S10240, .f32⟩
  | .hbm, ⟨30, _⟩ => ⟨S10240x1, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S1x128, .f32⟩
  | .hbm, ⟨40, _⟩ => ⟨S1x128, .f32⟩
  | .hbm, ⟨41, _⟩ => ⟨S10240x128, .f32⟩
  | .hbm, ⟨42, _⟩ => ⟨S10000x128, .f32⟩
  | .local _ .vmem, ⟨0, _⟩ => ⟨S10240x128, .bf16⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1x1024, .i32⟩
  | .local _ .vmem, ⟨5, _⟩ => ⟨S10240x128, .f32⟩
  | .local _ .vmem, ⟨6, _⟩ => ⟨S1024x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x128, .f32⟩
  | .local _ .vmem, ⟨11, _⟩ => ⟨S1280x1, .f32⟩
  | .local _ .vmem, ⟨12, _⟩ => ⟨S1280x1, .f32⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1280x128, .f32⟩
  | .local _ .vmem, ⟨20, _⟩ => ⟨S1280x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32_4 : BitVec 32 := 0#32
  let c8_i32 : BitVec 32 := 8#32
  let v11 : BitVec 32 := Scalar.addi c0_i32_4 c8_i32
  let c1_i32 : BitVec 32 := 1#32
  ⟨c0_i32_4, v11, c1_i32⟩
def k0_mult1 (k0_t1 : Fin k0_t1_loop.trips) : BitVec 32 :=
  let c0_i32_15 : BitVec 32 := 0#32
  let c0_i32_4 : BitVec 32 := 0#32
  let c1_i32 : BitVec 32 := 1#32
  let arg6 : BitVec 32 := Scf.iv c0_i32_4 c1_i32 k0_t1
  let c1_i32_14 : BitVec 32 := 1#32
  let v19 : BitVec 32 := Scalar.muli arg6 c1_i32_14
  let v20 : BitVec 32 := Scalar.addi c0_i32_15 v19
  let c1280_i32 : BitVec 32 := 1280#32
  let v21 : BitVec 32 := Scalar.muli v20 c1280_i32
  v21
def k0_off1 (k0_t1 : Fin k0_t1_loop.trips) : Fin 2 → Nat :=
  let c0_i32_15 : BitVec 32 := 0#32
  let c0_i32_4 : BitVec 32 := 0#32
  let c1_i32 : BitVec 32 := 1#32
  let arg6 : BitVec 32 := Scf.iv c0_i32_4 c1_i32 k0_t1
  let c1_i32_14 : BitVec 32 := 1#32
  let v19 : BitVec 32 := Scalar.muli arg6 c1_i32_14
  let v20 : BitVec 32 := Scalar.addi c0_i32_15 v19
  let c1280_i32 : BitVec 32 := 1280#32
  let v21 : BitVec 32 := Scalar.muli v20 c1280_i32
  let v22 : BitVec 32 := v21
  let v23 : Index := Scalar.indexCast v22
  let c0_16 : Index := 0#32
  ![v23.toNat, 0]
@[reducible] def k0_t2_loop : Scf.Loop 32 :=
  let c0_i32_10 : BitVec 32 := 0#32
  let c8_i32_11 : BitVec 32 := 8#32
  let v18 : BitVec 32 := Scalar.addi c0_i32_10 c8_i32_11
  let c1_i32_12 : BitVec 32 := 1#32
  ⟨c0_i32_10, v18, c1_i32_12⟩
def k0_mult2 (k0_t2 : Fin k0_t2_loop.trips) : BitVec 32 :=
  let c0_i32_15 : BitVec 32 := 0#32
  let c0_i32_10 : BitVec 32 := 0#32
  let c1_i32_12 : BitVec 32 := 1#32
  let arg6 : BitVec 32 := Scf.iv c0_i32_10 c1_i32_12 k0_t2
  let c1_i32_14 : BitVec 32 := 1#32
  let v19 : BitVec 32 := Scalar.muli arg6 c1_i32_14
  let v20 : BitVec 32 := Scalar.addi c0_i32_15 v19
  let c1280_i32 : BitVec 32 := 1280#32
  let v21 : BitVec 32 := Scalar.muli v20 c1280_i32
  v21
def k0_off2 (k0_t2 : Fin k0_t2_loop.trips) : Fin 2 → Nat :=
  let c0_i32_15 : BitVec 32 := 0#32
  let c0_i32_10 : BitVec 32 := 0#32
  let c1_i32_12 : BitVec 32 := 1#32
  let arg6 : BitVec 32 := Scf.iv c0_i32_10 c1_i32_12 k0_t2
  let c1_i32_14 : BitVec 32 := 1#32
  let v19 : BitVec 32 := Scalar.muli arg6 c1_i32_14
  let v20 : BitVec 32 := Scalar.addi c0_i32_15 v19
  let c1280_i32 : BitVec 32 := 1280#32
  let v21 : BitVec 32 := Scalar.muli v20 c1280_i32
  let v22 : BitVec 32 := v21
  let v31 : Index := Scalar.indexCast v22
  let c0_17 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10240x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1280x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  slices_S2x640000_S1x640000_0_0 : S2x640000.Slices ![0, 0] S1x640000
  shapeCasts_S1x640000_S640000 : S1x640000.ShapeCasts S640000
  shapeCasts_S640000_S1x640000 : S640000.ShapeCasts S1x640000
  slices_S2x640000_S1x640000_1_0 : S2x640000.Slices ![1, 0] S1x640000
  inb_S10240x128_S10240x128_0_0 : ∀ a, (![0, 0] : Fin 2 → Nat) a + S10240x128.size a ≤ S10240x128.size a
  h_S10240x128 : 0 < S10240x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1280x1024 : S1x1024.Broadcasts S1280x1024
  h_S1280x128 : 0 < S1280x128.numel
  shapeCasts_S1280x128_S1280x128 : S1280x128.ShapeCasts S1280x128
  iota_S1280x1024_d0_w32 : S1280x1024.Iotas .tc 32 [0]
  natLt_1_32 : 1 < 32
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  pads_S10000_S10240_02400 : S10000.Pads (![0] : Fin 1 → Nat) ![240] ![0] S10240
  shapeCasts_S10240_S10240x1 : S10240.ShapeCasts S10240x1
  slices_S256x128_S128x128_0_0 : S256x128.Slices ![0, 0] S128x128
  slices_S256x128_S128x128_128_0 : S256x128.Slices ![128, 0] S128x128
  shapeCasts_S128_S1x128 : S128.ShapeCasts S1x128
  inb_S1280x128_S1280x128_0_0 : ∀ a, (![0, 0] : Fin 2 → Nat) a + S1280x128.size a ≤ S1280x128.size a
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  broadcasts_S1280x1_S1280x128 : S1280x1.Broadcasts S1280x128
  slices_S10240x128_S10000x128_0_0 : S10240x128.Slices ![0, 0] S10000x128
  dot_S1280x1024_S1280x128_S1024x128_0_0_1_1_n_n_wf : DotDims.WF S1280x1024 S1280x128 S1024x128 [0] [0] [1] [1] [] []
  dot_S1280x1024_S1024x128_S1280x128_1_0_0_1_n_n_wf : DotDims.WF S1280x1024 S1024x128 S1280x128 [1] [0] [0] [1] [] []
  scatter_S10000_S640000x1_S640000_n_0_0_1_wf : ScatterDims.WF S10000 S640000x1 S640000 [] [0] [0] 1
  dot_S1280x128_S128x128_S1280x128_1_0_0_1_n_n_wf : DotDims.WF S1280x128 S128x128 S1280x128 [1] [0] [0] [1] [] []
  hrank0 : 0 < grid0.rank
  k0_t1_ok : k0_t1_loop.OK
  k0_mult1_dvd : ∀ k0_t1 : Fin k0_t1_loop.trips, 1280 ∣ (k0_mult1 k0_t1).toNat
  k0_off1_inb : ∀ k0_t1 : Fin k0_t1_loop.trips, ∀ a, (k0_off1 k0_t1) a + S1280x128.size a ≤ S10240x128.size a
  k0_t2_ok : k0_t2_loop.OK
  k0_mult2_dvd : ∀ k0_t2 : Fin k0_t2_loop.trips, 1280 ∣ (k0_mult2 k0_t2).toNat
  k0_off2_inb : ∀ k0_t2 : Fin k0_t2_loop.trips, ∀ a, (k0_off2 k0_t2) a + S1280x128.size a ≤ S10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10240x128.size a ≤ S10240x128.size a
  hwx0_0 : ∀ i : grid0.Coords, EltTy.bits .bf16 = 32 ∨ (Rect.block (s := S10240x128) S10240x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x640000.size a
  hwx0_1 : ∀ i : grid0.Coords, EltTy.bits .i32 = 32 ∨ (Rect.block (s := S1x640000) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x640000.size a
  hwx0_2 : ∀ i : grid0.Coords, EltTy.bits .i32 = 32 ∨ (Rect.block (s := S1x640000) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10240x128.size a ≤ S10240x128.size a
  hwx0_3 : ∀ i : grid0.Coords, EltTy.bits .f32 = 32 ∨ (Rect.block (s := S10240x128) S10240x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x128.size a ≤ S10240x128.size a
  hwx1_0 : ∀ i : grid1.Coords, EltTy.bits .f32 = 32 ∨ (Rect.block (s := S10240x128) S1280x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S10240x128.size a
  hwx1_1 : ∀ i : grid1.Coords, EltTy.bits .f32 = 32 ∨ (Rect.block (s := S10240x128) S1280x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x1.size a ≤ S10240x1.size a
  hwx1_2 : ∀ i : grid1.Coords, EltTy.bits .f32 = 32 ∨ (Rect.block (s := S10240x1) S1280x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1280x128.size a ≤ S10240x128.size a
  hwx1_9 : ∀ i : grid1.Coords, EltTy.bits .f32 = 32 ∨ (Rect.block (s := S10240x128) S1280x128.size (cc1_transform_9 i) (hinb1_9 i)).WholeWords (EltTy.packing .f32)

variable [Facts₀]

def dot_S1280x1024_S1280x128_S1024x128_0_0_1_1_n_n : DotDims S1280x1024 S1280x128 S1024x128 where
  lhsContracting := [0]
  rhsContracting := [0]
  lhsNonContracting := [1]
  rhsNonContracting := [1]
  lhsBatch := []
  rhsBatch := []
  wf := dot_S1280x1024_S1280x128_S1024x128_0_0_1_1_n_n_wf
def dot_S1280x1024_S1024x128_S1280x128_1_0_0_1_n_n : DotDims S1280x1024 S1024x128 S1280x128 where
  lhsContracting := [1]
  rhsContracting := [0]
  lhsNonContracting := [0]
  rhsNonContracting := [1]
  lhsBatch := []
  rhsBatch := []
  wf := dot_S1280x1024_S1024x128_S1280x128_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_v1) S10240x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10240x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1280x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1280x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1280x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S10000x256 : Shape := ⟨2, ![10000, 256]⟩

abbrev nBuf : Space → Nat
  | .hbm => 42
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x256, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S10000x128, .f32⟩
  | .hbm, ⟨35, _⟩ => ⟨S640000x1, .i32⟩
  | .hbm, ⟨36, _⟩ => ⟨S10000x128, .f32⟩
  | .hbm, ⟨37, _⟩ => ⟨S10000x256, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x256_S256x128_S640000x128_1_0_0_1_n_n_wf : DotDims.WF S640000x256 S256x128 S640000x128 [1] [0] [0] [1] [] []
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The mathematics of this certificate, stated once over literal shapes and free of either program.

  A graph layer: `feat` holds one feature row per node, each edge `e` has a source node `src e` and a destination
  node `dst e`.  The reference builds, per edge, the message `[feat[src e], feat[dst e]] · Wmsg + bmsg`, sums the
  messages of the edges that end in node `n`, and applies `[feat[n], agg[n]] · Wupd + bupd`  (`outR`).
  The kernel never forms a per-edge message: it sums the SOURCE rows of the edges ending in `n` (`gsum`), counts those
  edges (`cnt`), and uses that the destination half of every such message is the same row `feat[n]`  (`outK`).
  Over finite inputs the two agree, by distributivity of the matrix product over the edge sum.

  Also here: the two forms in which the kernel's regions deliver their results — a one-hot selection written as a sum of
  `if`s over word equalities (`tileSum`, `gsK`) and the per-row expression of the second region (`fin`).
-/
import Idealize.ShloMosaic.Lib.ValueIdx
import Idealize.ShloMosaic.PureOps.Ideal

noncomputable section

namespace Cert.Spec

open Idealize.ShloMosaic Idealize.ShloMosaic.ValueIdx

/-- A literal rank-2 shape. -/
abbrev Sh2 (a b : Nat) : Shape := ⟨2, ![a, b]⟩
/-- A literal rank-1 shape. -/
abbrev Sh1 (a : Nat) : Shape := ⟨1, ![a]⟩

/-- Every entry is a real number (neither infinity). -/
def IsReal {ι : Type} (x : ι → EReal) : Prop := ∀ i, ∃ r : ℝ, x i = (r : EReal)

/-- Row `k` of the upper half of a 256-row weight matrix. -/
abbrev lo (k : Fin 128) : Fin 256 := ⟨k.val, Nat.lt_of_lt_of_le k.isLt (by decide)⟩
/-- Row `128 + k`: the lower half. -/
abbrev hi (k : Fin 128) : Fin 256 := ⟨128 + k.val, by have := k.isLt; omega⟩
/-- A node as a row of the zero-padded node table (10240 rows). -/
abbrev row (n : Fin 10000) : Fin 10240 := ⟨n.val, Nat.lt_of_lt_of_le n.isLt (by decide)⟩

section Plain
variable (feat : (Sh2 10000 128).Idx → EReal) (src dst : Fin 640000 → Fin 10000)
  (Wmsg : (Sh2 256 128).Idx → EReal) (bmsg : (Sh1 128).Idx → EReal)
  (Wupd : (Sh2 256 128).Idx → EReal) (bupd : (Sh1 128).Idx → EReal)

/-! ## The kernel's form -/

/-- How many edges end in node `n`. -/
def cnt (n : Fin 10000) : EReal := ∑ e : Fin 640000, if dst e = n then (1 : EReal) else 0

/-- The sum of the source rows of the edges that end in node `n`. -/
def gsum (n : Fin 10000) (f : Fin 128) : EReal := ∑ e : Fin 640000, if dst e = n then feat (ix2 (src e) f) else 0

/-- The destination half of a message into node `n`: `feat[n] · Wmsg[128:] + bmsg`. -/
def dstTerm (n : Fin 10000) (g : Fin 128) : EReal := (∑ k : Fin 128, feat (ix2 n k) * Wmsg (ix2 (hi k) g)) + bmsg (ix1 g)

/-- The aggregated message as the kernel forms it. -/
def aggK (n : Fin 10000) (g : Fin 128) : EReal :=
  (∑ k : Fin 128, gsum feat src dst n k * Wmsg (ix2 (lo k) g)) + cnt dst n * dstTerm feat Wmsg bmsg n g

/-- The kernel's result. -/
def outK (n : Fin 10000) (f : Fin 128) : EReal :=
  ((∑ k : Fin 128, feat (ix2 n k) * Wupd (ix2 (lo k) f)) + ∑ g : Fin 128, aggK feat src dst Wmsg bmsg n g * Wupd (ix2 (hi g) f))
    + bupd (ix1 f)

/-! ## The reference's form -/

/-- Entry `k` of edge `e`'s concatenated input `[feat[src e], feat[dst e]]`. -/
def edgeIn (e : Fin 640000) (k : Fin 256) : EReal :=
  if h : k.val < 128 then feat (ix2 (src e) ⟨k.val, h⟩) else feat (ix2 (dst e) ⟨k.val - 128, by have := k.isLt; omega⟩)

/-- Edge `e`'s message. -/
def msg (e : Fin 640000) (g : Fin 128) : EReal := (∑ k : Fin 256, edgeIn feat src dst e k * Wmsg (ix2 k g)) + bmsg (ix1 g)

/-- The messages of the edges ending in `n`, summed. -/
def aggR (n : Fin 10000) (g : Fin 128) : EReal := ∑ e : Fin 640000, if dst e = n then msg feat src dst Wmsg bmsg e g else 0

/-- Entry `k` of node `n`'s concatenated input `[feat[n], agg[n]]`. -/
def updIn (n : Fin 10000) (k : Fin 256) : EReal :=
  if h : k.val < 128 then feat (ix2 n ⟨k.val, h⟩) else aggR feat src dst Wmsg bmsg n ⟨k.val - 128, by have := k.isLt; omega⟩

/-- The reference's result. -/
def outR (n : Fin 10000) (f : Fin 128) : EReal :=
  (∑ k : Fin 256, updIn feat src dst Wmsg bmsg n k * Wupd (ix2 k f)) + bupd (ix1 f)

end Plain

/-- Row `n'` of a 10000-row table zero-padded to 10240 rows. -/
def padRow (x : (Sh2 10000 128).Idx → EReal) (n' : Fin 10240) (f : Fin 128) : EReal :=
  if h : n'.val < 10000 then x (ix2 ⟨n'.val, h⟩ f) else 0

/-! ## The forms the kernel's two regions deliver -/

/-- One tile of 1024 edges: for node row `n`, the sum over the tile's edges whose destination WORD is `n` of the row of
    the table `X` that the edge's source WORD selects (a one-hot selection: a sum of `if`s over all 10240 rows). -/
def tileSum (X : (Sh2 10240 128).Idx → EReal) (s d : (Sh2 1 1024).Idx → BitVec 32) (n : Fin 10240) (f : Fin 128) : EReal :=
  ∑ j : Fin 1024, if d (ix2 0 j) = BitVec.ofNat 32 n.val
    then (∑ n' : Fin 10240, if s (ix2 0 j) = BitVec.ofNat 32 n'.val then X (ix2 n' f) else 0) else 0

/-- The same over all 640000 edges: what the first region leaves in its output array. -/
def gsK (X : (Sh2 10240 128).Idx → EReal) (S D : (Sh2 1 640000).Idx → BitVec 32) (n : Fin 10240) (f : Fin 128) : EReal :=
  ∑ e : Fin 640000, if D (ix2 0 e) = BitVec.ofNat 32 n.val
    then (∑ n' : Fin 10240, if S (ix2 0 e) = BitVec.ofNat 32 n'.val then X (ix2 n' f) else 0) else 0

/-- The second region, row by row: from the padded node table `A`, the gathered sums `G`, the in-degree column `C`, the four
    128×128 weight blocks and the two bias rows. -/
def fin (A G : (Sh2 10240 128).Idx → EReal) (C : (Sh2 10240 1).Idx → EReal)
    (Wm1 Wm2 Wu1 Wu2 : (Sh2 128 128).Idx → EReal) (bm bu : (Sh2 1 128).Idx → EReal) (n : Fin 10240) (f : Fin 128) : EReal :=
  ((∑ k : Fin 128, A (ix2 n k) * Wu1 (ix2 k f))
    + ∑ g : Fin 128, ((∑ k : Fin 128, G (ix2 n k) * Wm1 (ix2 k g))
        + C (ix2 n 0) * ((∑ k : Fin 128, A (ix2 n k) * Wm2 (ix2 k g)) + bm (ix2 0 g))) * Wu2 (ix2 g f))
    + bu (ix2 0 f)

end Cert.Spec

end
-- ==== Proof.Algebra.lean ====
import proofs.«408216_j9105330668111_1_alg».proof.Proof.Spec
import Mathlib.Algebra.BigOperators.Fin
import Mathlib.Data.EReal.Basic

noncomputable section

namespace Cert.Spec

open Idealize.ShloMosaic Idealize.ShloMosaic.ValueIdx

/-! ## Finite real sums inside the extended reals -/

/-- The embedding of the reals carries a finite sum to the sum of the embedded terms. -/
theorem coe_sum_real {ι : Type} (s : Finset ι) (g : ι → ℝ) :
    ((∑ i ∈ s, g i : ℝ) : EReal) = ∑ i ∈ s, (g i : EReal) := by
  classical
  refine Finset.induction_on s ?_ ?_
  · simp
  · intro a t ha ih
    rw [Finset.sum_insert ha, Finset.sum_insert ha, EReal.coe_add, ih]

/-- The embedding of the reals carries a guarded term to the guarded embedded term. -/
theorem coe_ite_zero (p : Prop) [Decidable p] (x : ℝ) :
    ((if p then x else 0 : ℝ) : EReal) = if p then (x : EReal) else 0 := by
  by_cases h : p
  · rw [if_pos h, if_pos h]
  · rw [if_neg h, if_neg h, EReal.coe_zero]

/-! ## A sum over 256 rows is the sum over its two halves of 128 rows -/

theorem sum_fin256 {M : Type} [AddCommMonoid M] (h : Fin 256 → M) :
    ∑ k : Fin 256, h k = ∑ k : Fin 128, h (lo k) + ∑ k : Fin 128, h (hi k) :=
  Fin.sum_univ_add (a := 128) (b := 128) h

/-! ## The concatenated inputs, read half by half -/

section Halves
variable (feat : (Sh2 10000 128).Idx → EReal) (src dst : Fin 640000 → Fin 10000)
  (Wmsg : (Sh2 256 128).Idx → EReal) (bmsg : (Sh1 128).Idx → EReal)

/-- The first half of an edge's input is its source row. -/
theorem edgeIn_lo (e : Fin 640000) (k : Fin 128) :
    edgeIn feat src dst e (lo k) = feat (ix2 (src e) k) := by
  unfold edgeIn
  rw [dif_pos (show (lo k).val < 128 from k.isLt)]

/-- The second half of an edge's input is its destination row. -/
theorem edgeIn_hi (e : Fin 640000) (k : Fin 128) :
    edgeIn feat src dst e (hi k) = feat (ix2 (dst e) k) := by
  unfold edgeIn
  have hk : ¬ (hi k).val < 128 := by show ¬ (128 + k.val < 128); omega
  rw [dif_neg hk]
  have hk' : (⟨(hi k).val - 128, by have := (hi k).isLt; omega⟩ : Fin 128) = k :=
    Fin.ext (by show 128 + k.val - 128 = k.val; omega)
  rw [hk']

/-- The first half of a node's input is its own row. -/
theorem updIn_lo (n : Fin 10000) (k : Fin 128) :
    updIn feat src dst Wmsg bmsg n (lo k) = feat (ix2 n k) := by
  unfold updIn
  rw [dif_pos (show (lo k).val < 128 from k.isLt)]

/-- The second half of a node's input is its aggregated message. -/
theorem updIn_hi (n : Fin 10000) (k : Fin 128) :
    updIn feat src dst Wmsg bmsg n (hi k) = aggR feat src dst Wmsg bmsg n k := by
  unfold updIn
  have hk : ¬ (hi k).val < 128 := by show ¬ (128 + k.val < 128); omega
  rw [dif_neg hk]
  have hk' : (⟨(hi k).val - 128, by have := (hi k).isLt; omega⟩ : Fin 128) = k :=
    Fin.ext (by show 128 + k.val - 128 = k.val; omega)
  rw [hk']

end Halves

/-! ## The exchange of the edge sum with the matrix product, over the reals

The predicate p marks the edges that end in the node at hand; A gives an edge's source row and B its destination row,
which is the fixed row Bn on every marked edge.  Summing the marked messages edge by edge equals multiplying the summed
source rows by the first weight block and adding the number of marked edges times the common destination term. -/

theorem agg_real {E : Type} [Fintype E] (p : E → Prop) [DecidablePred p]
    (A B : E → Fin 128 → ℝ) (Bn : Fin 128 → ℝ) (hB : ∀ e, p e → B e = Bn) (W1 W2 : Fin 128 → ℝ) (b : ℝ) :
    (∑ k, (∑ e, if p e then A e k else 0) * W1 k)
        + (∑ e, if p e then (1 : ℝ) else 0) * ((∑ k, Bn k * W2 k) + b)
      = ∑ e, if p e then ((∑ k, A e k * W1 k + ∑ k, B e k * W2 k) + b) else 0 := by
  -- one edge's guarded message is its source part plus its guard times the common destination term
  have hR : ∀ e, (if p e then ((∑ k, A e k * W1 k + ∑ k, B e k * W2 k) + b) else 0)
      = (∑ k, (if p e then A e k else 0) * W1 k)
          + (if p e then (1 : ℝ) else 0) * ((∑ k, Bn k * W2 k) + b) := by
    intro e
    by_cases h : p e
    · simp only [if_pos h, hB e h, one_mul, add_assoc]
    · simp only [if_neg h, zero_mul, Finset.sum_const_zero, add_zero]
  simp only [hR, Finset.sum_add_distrib, Finset.sum_mul]
  rw [Finset.sum_comm]

/-- The same exchange for embedded reals in the extended reals. -/
theorem agg_ereal {E : Type} [Fintype E] (p : E → Prop) [DecidablePred p]
    (A B : E → Fin 128 → ℝ) (Bn : Fin 128 → ℝ) (hB : ∀ e, p e → B e = Bn) (W1 W2 : Fin 128 → ℝ) (b : ℝ) :
    (∑ k, (∑ e, if p e then (A e k : EReal) else 0) * (W1 k : EReal))
        + (∑ e, if p e then (1 : EReal) else 0) * ((∑ k, (Bn k : EReal) * (W2 k : EReal)) + (b : EReal))
      = ∑ e, if p e then ((∑ k, (A e k : EReal) * (W1 k : EReal) + ∑ k, (B e k : EReal) * (W2 k : EReal)) + (b : EReal))
          else 0 := by
  have key := congrArg (fun x : ℝ => (x : EReal)) (agg_real p A B Bn hB W1 W2 b)
  simpa only [coe_sum_real, EReal.coe_add, EReal.coe_mul, coe_ite_zero, EReal.coe_one] using key

/-! ## The two forms of the layer -/

/-- Over finite inputs the kernel's form and the reference's form of the layer agree. -/
theorem outK_eq_outR (feat : (Sh2 10000 128).Idx → EReal) (src dst : Fin 640000 → Fin 10000)
    (Wmsg : (Sh2 256 128).Idx → EReal) (bmsg : (Sh1 128).Idx → EReal) (Wupd : (Sh2 256 128).Idx → EReal) (bupd : (Sh1 128).Idx → EReal)
    (hf : IsReal feat) (hWm : IsReal Wmsg) (hbm : IsReal bmsg) (hWu : IsReal Wupd) (hbu : IsReal bupd)
    (n : Fin 10000) (f : Fin 128) :
    outK feat src dst Wmsg bmsg Wupd bupd n f = outR feat src dst Wmsg bmsg Wupd bupd n f := by
  -- the aggregated message agrees entry by entry
  have hagg : ∀ g : Fin 128, aggK feat src dst Wmsg bmsg n g = aggR feat src dst Wmsg bmsg n g := by
    intro g
    have hf' : ∀ i, ∃ r : ℝ, feat i = (r : EReal) := hf
    have hWm' : ∀ i, ∃ r : ℝ, Wmsg i = (r : EReal) := hWm
    have hbm' : ∀ i, ∃ r : ℝ, bmsg i = (r : EReal) := hbm
    choose F hF using hf'
    choose Wm hW using hWm'
    choose bm hb using hbm'
    unfold aggK aggR gsum cnt dstTerm msg
    simp only [sum_fin256, edgeIn_lo, edgeIn_hi]
    simp only [hF, hW, hb]
    exact agg_ereal (fun e => dst e = n) (fun e k => F (ix2 (src e) k)) (fun e k => F (ix2 (dst e) k))
      (fun k => F (ix2 n k)) (fun e h => by funext k; have h' : dst e = n := h; rw [h'])
      (fun k => Wm (ix2 (lo k) g)) (fun k => Wm (ix2 (hi k) g)) (bm (ix1 g))
  unfold outK outR
  rw [sum_fin256]
  simp only [updIn_lo, updIn_hi, hagg]

end Cert.Spec

end
-- ==== Proof.PreDecode.lean ====
import proofs.«408216_j9105330668111_1_alg».proof.Pre_finite_inputs
import proofs.«408216_j9105330668111_1_alg».proof.Proof.Gen.Pre_finite_inputs
import proofs.«408216_j9105330668111_1_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Spec

variable [Cert.Pre_finite_inputs.Facts]

/-- The rank-0 shape has exactly one index. -/
instance : Subsingleton Cert.Pre_finite_inputs.S_.Idx := ⟨fun a b => funext fun d => d.elim0⟩

/-- The f32 pattern with all exponent bits set and a zero fraction denotes +∞. -/
theorem inf_bits : Ideal.ofBits .f32 0x7F800000#32 = (⊤ : EReal) := by
  simp [Ideal.ofBits, Ideal.ieee]

/-- An extended real whose absolute value `max x (-x)` lies strictly below +∞ is a real number:
    at either infinity the absolute value is +∞ itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One float conjunct: if the test `|x| < +∞`, taken entry by entry and and-reduced over all axes, comes out 1,
    then every entry of `x` is real. -/
theorem isReal_of_all {S : Shape} {axes : List (Fin S.rank)} (x : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
          (cmpf (F := Ideal) (φ := .f32) .olt (Host.absf (F := Ideal) (φ := .f32) x)
            (broadcastInDim S ![] hb (constant (F := Ideal) Cert.Pre_finite_inputs.S_ .f32 0x7F800000#32)))
          (constantI Cert.Pre_finite_inputs.S_ 1 1#1) hr hu ix0 = 1#1) : IsReal x := by
  intro i
  have hi := Host.reduce_andi_all _ _ hr hu ix0 h i
  have hi' : Ideal.cmp .olt (max (x i) (-(x i))) (Ideal.ofBits .f32 0x7F800000#32) = 1#1 := hi
  rw [inf_bits] at hi'
  exact real_of_abs_lt_top (x i) hi'

/-- A 32-bit word whose signed value lies in [0, 10000) is the word of its own unsigned value, which is below 10000:
    a non-negative signed value has its top bit clear, so the signed and unsigned readings agree. -/
theorem word_decode (w : BitVec 32) (h0 : 0 ≤ w.toInt) (h1 : w.toInt < 10000) :
    w.toNat < 10000 ∧ w = BitVec.ofNat 32 w.toNat := by
  have hlt := w.isLt
  have hw : w = BitVec.ofNat 32 w.toNat := by
    apply BitVec.eq_of_toNat_eq
    rw [BitVec.toNat_ofNat]
    exact (Nat.mod_eq_of_lt hlt).symm
  rw [BitVec.toInt_eq_toNat_cond] at h0 h1
  split_ifs at h0 h1 with hc
  · exact ⟨by omega, hw⟩
  · omega

/-- What the precondition says: every float input is real, and every edge endpoint is a node number below 10000. -/
theorem of_pre (x0 : (Sh2 10000 128).Idx → EReal) (x1 : (Sh2 2 640000).Idx → BitVec 32) (x2 : (Sh2 256 128).Idx → EReal)
    (x3 : (Sh1 128).Idx → EReal) (x4 : (Sh2 256 128).Idx → EReal) (x5 : (Sh1 128).Idx → EReal)
    (h : Cert.Pre_finite_inputs.fn (F := Ideal) x0 x1 x2 x3 x4 x5 = fun _ => 1#1) :
    IsReal x0 ∧ IsReal x2 ∧ IsReal x3 ∧ IsReal x4 ∧ IsReal x5 ∧
      ∃ src dst : Fin 640000 → Fin 10000,
        (∀ e, x1 (ix2 0 e) = BitVec.ofNat 32 (src e).val) ∧ (∀ e, x1 (ix2 1 e) = BitVec.ofNat 32 (dst e).val) := by
  have h0 := congrFun h ValueIdx.ix0
  dsimp only [Cert.Pre_finite_inputs.fn, Cert.Pre_finite_inputs.fn_part1] at h0
  simp only [andi, IntOp.andi_eq_one] at h0
  obtain ⟨⟨⟨⟨⟨hx0, hx2⟩, hx3⟩, hx4⟩, hx5⟩, hx1⟩ := h0
  -- the index range, word by word: both signed tests hold at every entry of the edge table
  have hw : ∀ i, (x1 i).toNat < 10000 ∧ x1 i = BitVec.ofNat 32 (x1 i).toNat := by
    intro i
    have hi := Host.reduce_andi_all _ _ _ _ ix0 hx1 i
    simp only [andi, cmpi, broadcastInDim, constantI, IntOp.andi_eq_one, IntOp.cmpi_sge, IntOp.cmpi_slt] at hi
    have e0 : (0#32 : BitVec 32).toInt = 0 := by decide
    have e1 : (10000#32 : BitVec 32).toInt = 10000 := by decide
    rw [e0, e1] at hi
    exact word_decode (x1 i) hi.1 hi.2
  refine ⟨isReal_of_all x0 _ _ _ hx0, isReal_of_all x2 _ _ _ hx2, isReal_of_all x3 _ _ _ hx3,
    isReal_of_all x4 _ _ _ hx4, isReal_of_all x5 _ _ _ hx5,
    fun e => ⟨(x1 (ix2 0 e)).toNat, (hw _).1⟩, fun e => ⟨(x1 (ix2 1 e)).toNat, (hw _).1⟩,
    fun e => (hw _).2, fun e => (hw _).2⟩

end Cert.PreDecode

end
-- ==== Proof.RefMsg.lean ====
import proofs.«408216_j9105330668111_1_alg».proof.Proof.Gen.ReferenceIdeal.Read
import proofs.«408216_j9105330668111_1_alg».proof.Proof.Spec
import Idealize.ShloMosaic.Lib.StableHlo.Predicate

noncomputable section

namespace Cert.RefValue

open Idealize.ShloMosaic Idealize.ShloMosaic.ValueIdx Cert.Spec
open Cert.ReferenceIdeal

variable [Cert.ReferenceIdeal.Facts]

/-! ## The row gather at an index

The gather takes whole rows of a two-axis table: axis 0 of the table is collapsed and addressed by the start index,
axis 1 is the one offset axis, and the start indices are a column with one word per result row. Result element
`(e, k)` is therefore the table at row `start e` (the word of row `e` read signed and clamped into the table's rows)
and column `k`. -/

/-- The gather at `(e, k)` reads row `n` of the table at column `k`, where `n` is the clamped signed value of the
    start word of row `e`. -/
theorem gather_row {α : Type} (x : (Sh2 10000 128).Idx → α) (idx : IVec (Sh2 640000 1) 32) (e : Fin 640000) (k : Fin 128)
    (n : Fin 10000) (hn : min (idx (ix2 e 0)).toInt.toNat 9999 = n.val) :
    Host.gather gather_S10000x128_S640000x1_S640000x128_1_0_n_n_0_1_1128 x idx (ix2 e k) = x (ix2 n k) := by
  unfold Host.gather
  congr 1
  funext a
  refine Fin.ext ?_
  match a with
  | ⟨0, _⟩ =>
    -- the addressed axis: the clamped start, no batching coordinate, no offset coordinate
    show gather_S10000x128_S640000x1_S640000x128_1_0_n_n_0_1_1128.start (ix2 e k) idx 0
        + gather_S10000x128_S640000x1_S640000x128_1_0_n_n_0_1_1128.batchCoord (ix2 e k) 0
        + gather_S10000x128_S640000x1_S640000x128_1_0_n_n_0_1_1128.offCoord (ix2 e k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from List.mem_singleton.mpr rfl)]
    -- the start word of result row `e` sits at `(e, 0)` of the column of start indices
    have hsi : gather_S10000x128_S640000x1_S640000x128_1_0_n_n_0_1_1128.siIdx (ix2 e k) ⟨List.idxOf (0 : Fin 2) gather_S10000x128_S640000x1_S640000x128_1_0_n_n_0_1_1128.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    exact hn
  | ⟨1, _⟩ =>
    -- the offset axis: start 0, no batching coordinate, the result's column
    show gather_S10000x128_S640000x1_S640000x128_1_0_n_n_0_1_1128.start (ix2 e k) idx 1
        + gather_S10000x128_S640000x1_S640000x128_1_0_n_n_0_1_1128.batchCoord (ix2 e k) 1
        + gather_S10000x128_S640000x1_S640000x128_1_0_n_n_0_1_1128.offCoord (ix2 e k) 1 = k.val
    rw [GatherDims.batchCoord_eq_zero _ _ _ List.not_mem_nil]
    unfold GatherDims.start
    rw [dif_neg (show ¬ (1 : Fin 2) ∈ gather_S10000x128_S640000x1_S640000x128_1_0_n_n_0_1_1128.startIndexMap by decide)]
    unfold GatherDims.offCoord
    rw [dif_pos (show (1 : Fin 2) ∈ gather_S10000x128_S640000x1_S640000x128_1_0_n_n_0_1_1128.sKept by decide)]
    simp only [Nat.zero_add, Nat.add_zero]
    rfl

/-! ## The start words -/

/-- A word holding a node number below 10000 is not negative, so the negative-index wrap (add the table's row count to a
    negative word) leaves it as it is. -/
theorem wrap_word (n : Nat) (hn : n < 10000) :
    Scalar.select (IntOp.cmpi .slt (BitVec.ofNat 32 n) 0#32) (IntOp.addi (BitVec.ofNat 32 n) 10000#32) (BitVec.ofNat 32 n)
      = BitVec.ofNat 32 n := by
  have hc : IntOp.cmpi .slt (BitVec.ofNat 32 n) 0#32 = 0#1 := by
    apply eq_zero_of_ne_one
    intro h
    have h2 := (StableHlo.Predicate.slt_iff_toNat (a := BitVec.ofNat 32 n) (b := 0#32)
      (by simp [BitVec.toNat_ofNat]; omega) (by decide)).mp h
    simp at h2
  rw [hc, select_zero]

/-- Read signed, such a word is its node number, which the clamp into the table's rows does not move. -/
theorem word_toNat (n : Nat) (hn : n < 10000) : min (BitVec.ofNat 32 n).toInt.toNat 9999 = n := by
  rw [StableHlo.Predicate.toInt_ofNat_small n (by omega)]
  simp only [Int.toNat_natCast]
  omega

/-- The start word of edge `e` on the source side: the word `x1[0, e]`, wrapped. -/
theorem start_src (x1 : (Sh2 2 640000).Idx → BitVec 32) (e : Fin 640000) :
    Read.val_main_v9 (F := Ideal) x1 (ix2 e 0)
      = Scalar.select (IntOp.cmpi .slt (x1 (ix2 0 e)) 0#32) (IntOp.addi (x1 (ix2 0 e)) 10000#32) (x1 (ix2 0 e)) := by
  have h1 : Read.val_main_v1 (F := Ideal) x1 (ix1 e) = x1 (ix2 0 e) := by
    rw [Read.val_main_v1_apply, Read.val_main_v0_apply]
    congr 1
    funext a
    match a with
    | ⟨0, _⟩ => rfl
    | ⟨1, _⟩ => exact Fin.ext (Nat.mod_eq_of_lt e.isLt)
  rw [Read.val_main_v9_apply]
  have hi : Read.idx_main_v9 (ix2 e 0) = ix1 e := by
    funext a
    match a with
    | ⟨0, _⟩ => rfl
  rw [hi, Read.val_main_v8_apply, Read.val_main_v5_apply, Read.val_main_v7_apply, h1, Read.val_main_v4_apply, Read.val_main_v6_apply]
  rfl

/-- The start word of edge `e` on the destination side: the word `x1[1, e]`, wrapped. -/
theorem start_dst (x1 : (Sh2 2 640000).Idx → BitVec 32) (e : Fin 640000) :
    Read.val_main_v16 (F := Ideal) x1 (ix2 e 0)
      = Scalar.select (IntOp.cmpi .slt (x1 (ix2 1 e)) 0#32) (IntOp.addi (x1 (ix2 1 e)) 10000#32) (x1 (ix2 1 e)) := by
  have h1 : Read.val_main_v3 (F := Ideal) x1 (ix1 e) = x1 (ix2 1 e) := by
    rw [Read.val_main_v3_apply, Read.val_main_v2_apply]
    congr 1
    funext a
    match a with
    | ⟨0, _⟩ => rfl
    | ⟨1, _⟩ => exact Fin.ext (Nat.mod_eq_of_lt e.isLt)
  rw [Read.val_main_v16_apply]
  have hi : Read.idx_main_v16 (ix2 e 0) = ix1 e := by
    funext a
    match a with
    | ⟨0, _⟩ => rfl
  rw [hi, Read.val_main_v15_apply, Read.val_main_v12_apply, Read.val_main_v14_apply, h1, Read.val_main_v11_apply, Read.val_main_v13_apply]
  rfl

/-! ## The two gathered tables, the joined table, and the message -/

section Stage
variable (x0 : (Sh2 10000 128).Idx → EReal) (x1 : (Sh2 2 640000).Idx → BitVec 32) (src dst : Fin 640000 → Fin 10000)
  (hsrc : ∀ e, x1 (ix2 0 e) = BitVec.ofNat 32 (src e).val) (hdst : ∀ e, x1 (ix2 1 e) = BitVec.ofNat 32 (dst e).val)
include hsrc in
/-- The first gather holds, in row `e`, the feature row of `e`'s source node. -/
theorem gather_src (e : Fin 640000) (k : Fin 128) :
    Read.val_main_v10 (F := Ideal) x0 x1 (ix2 e k) = x0 (ix2 (src e) k) := by
  unfold Read.val_main_v10
  refine gather_row x0 _ e k (src e) ?_
  rw [start_src, hsrc e, wrap_word _ (src e).isLt, word_toNat _ (src e).isLt]

include hdst in
/-- The second gather holds, in row `e`, the feature row of `e`'s destination node. -/
theorem gather_dst (e : Fin 640000) (k : Fin 128) :
    Read.val_main_v17 (F := Ideal) x0 x1 (ix2 e k) = x0 (ix2 (dst e) k) := by
  unfold Read.val_main_v17
  refine gather_row x0 _ e k (dst e) ?_
  rw [start_dst, hdst e, wrap_word _ (dst e).isLt, word_toNat _ (dst e).isLt]

include hsrc hdst in
/-- The two gathers joined along the columns: row `e` is `[feat[src e], feat[dst e]]`. -/
theorem joined (e : Fin 640000) (k : Fin 256) :
    Read.val_main_v18 (F := Ideal) x0 x1 (ix2 e k) = edgeIn x0 src dst e k := by
  unfold Read.val_main_v18 edgeIn
  by_cases h : k.val < 128
  · rw [dif_pos h, ← gather_src x0 x1 src hsrc e ⟨k.val, h⟩]
    exact concatenate_pair_apply_left (t := S640000x256) (s₁ := S640000x128) (s₂ := S640000x128) (1 : Fin 2) _ _ _ (ix2 e k) rfl
      (ix2 e (⟨k.val, h⟩ : Fin 128))
      (fun b => match b with
        | ⟨0, _⟩ => rfl
        | ⟨1, _⟩ => rfl)
  · rw [dif_neg h, ← gather_dst x0 x1 dst hdst e ⟨k.val - 128, by have := k.isLt; omega⟩]
    exact concatenate_pair_apply_right (t := S640000x256) (s₁ := S640000x128) (s₂ := S640000x128) (1 : Fin 2) _ _ _ (ix2 e k) rfl rfl
      (ix2 e (⟨k.val - 128, by have := k.isLt; omega⟩ : Fin 128))
      (fun b hb => match b, hb with
        | ⟨0, _⟩, _ => rfl
        | ⟨1, _⟩, hb => absurd rfl hb)
      (by show k.val - 128 + 128 = k.val; omega)

end Stage

/-- The reference's per-edge message, read at edge `e`, column `g`. -/
theorem ref_msg (x0 : (Sh2 10000 128).Idx → EReal) (x1 : (Sh2 2 640000).Idx → BitVec 32) (x2 : (Sh2 256 128).Idx → EReal)
    (x3 : (Sh1 128).Idx → EReal) (src dst : Fin 640000 → Fin 10000)
    (hsrc : ∀ e, x1 (ix2 0 e) = BitVec.ofNat 32 (src e).val) (hdst : ∀ e, x1 (ix2 1 e) = BitVec.ofNat 32 (dst e).val)
    (e : Fin 640000) (g : Fin 128) :
    Cert.ReferenceIdeal.Read.val_main_v22 (F := Ideal) x0 x1 x2 x3 (ix2 e g) = msg x0 src dst x2 x3 e g := by
  rw [Read.val_main_v22_apply, Read.val_main_v19_apply, Read.val_main_v21_apply, Read.val_main_v20_apply]
  unfold msg
  -- at the extended reals the float sum is the sum
  show (∑ k : Fin 256, _ * _) + _ = (∑ k : Fin 256, _ * _) + _
  congr 1
  · refine Finset.sum_congr rfl fun k _ => ?_
    have hl : Read.lidx_main_v19 (ix2 e g) k = ix2 e k := by
      funext a
      match a with
      | ⟨0, _⟩ => rfl
      | ⟨1, _⟩ => rfl
    have hr : Read.ridx_main_v19 (ix2 e g) k = ix2 k g := by
      funext a
      match a with
      | ⟨0, _⟩ => rfl
      | ⟨1, _⟩ => rfl
    rw [hl, hr, joined x0 x1 src dst hsrc hdst e k]
  · congr 1
    funext a
    match a with
    | ⟨0, _⟩ => rfl

end Cert.RefValue

end
-- ==== Proof.RefValue.lean ====
import proofs.«408216_j9105330668111_1_alg».proof.Proof.Gen.ReferenceIdeal.Read
import proofs.«408216_j9105330668111_1_alg».proof.Proof.Spec
import proofs.«408216_j9105330668111_1_alg».proof.Proof.RefMsg

noncomputable section

namespace Cert.RefValue

open Idealize.ShloMosaic Idealize.ShloMosaic.ValueIdx Cert.Spec
open Cert.ReferenceIdeal

variable [Cert.ReferenceIdeal.Facts]

/-! ## The scatter's dimension numbers

The updates are one 128-wide row per edge; the scatter indices are one word per edge. Update element `(e, g)` is added
into operand element `(w e, g)`, `w e` the edge's index word read as a signed number, when that is a row of the
operand. -/

/-- The scatter's dimension numbers: window axis 1 of the updates, operand axis 0 inserted and addressed by the index. -/
abbrev SD : ScatterDims S10000x128 S640000x1 S640000x128 := scatter_S10000x128_S640000x1_S640000x128_1_0_0_1

/-- Update `(e, g)` reads its index word at `(e, 0)`. -/
theorem siIdx_eq (j : S640000x128.Idx) (c : Fin SD.scatterDimsToOperandDims.length) :
    SD.siIdx j c = ix2 (j 0) 0 := by
  funext b
  apply Fin.ext
  match b with
  | ⟨0, _⟩ => rfl
  | ⟨1, _⟩ =>
    show c.val = 0
    have := c.isLt
    have h1 : SD.scatterDimsToOperandDims.length = 1 := rfl
    omega

/-- On the row axis the window starts at the edge's index word, read signed. -/
theorem start0 (j : S640000x128.Idx) (idx : IVec S640000x1 32) :
    SD.start j idx 0 = (idx (ix2 (j 0) 0)).toInt := by
  unfold ScatterDims.start
  split
  · exact congrArg (fun i => (idx i).toInt) (siIdx_eq j _)
  · next ha => exact absurd (show (0 : Fin S10000x128.rank) ∈ [(0 : Fin S10000x128.rank)] by simp) ha

/-- On the column axis the window starts at 0: the index names no column. -/
theorem start1 (j : S640000x128.Idx) (idx : IVec S640000x1 32) :
    SD.start j idx 1 = 0 := by
  unfold ScatterDims.start
  split
  · next ha =>
    exfalso
    have : (1 : Fin S10000x128.rank) ∈ [(0 : Fin S10000x128.rank)] := ha
    simp at this
  · rfl

/-- The row axis is an inserted one: its window coordinate is 0. -/
theorem window0 (j : S640000x128.Idx) :
    SD.window j 0 = 0 := by
  unfold ScatterDims.window
  split
  · next ha =>
    exfalso
    have : (0 : Fin S10000x128.rank) ∈ [(1 : Fin S10000x128.rank)] := ha
    simp at this
  · rfl

/-- The column axis carries the update's own column. -/
theorem window1 (j : S640000x128.Idx) :
    SD.window j 1 = (j 1).val := by
  unfold ScatterDims.window
  split
  · rfl
  · next ha => exact absurd (show (1 : Fin S10000x128.rank) ∈ [(1 : Fin S10000x128.rank)] by simp) ha

/-- When the edge's index word is the number of node `m`, update `(e, g)` lands on operand element `(m, g)`. -/
theorem resultIdx_eq (j : S640000x128.Idx) (idx : IVec S640000x1 32) (m : Fin 10000)
    (h : (idx (ix2 (j 0) 0)).toInt = (m.val : Int)) :
    SD.resultIdx? j idx = some (ix2 m (j 1)) := by
  have hm := m.isLt
  have hj := idx2_lt1 j
  have H : ∀ a, 0 ≤ SD.start j idx a + SD.window j a ∧ SD.start j idx a + SD.window j a < S10000x128.size a := by
    intro a
    match a with
    | ⟨0, _⟩ =>
      show 0 ≤ SD.start j idx 0 + SD.window j 0 ∧ SD.start j idx 0 + SD.window j 0 < ((10000 : ℕ) : Int)
      rw [start0, window0, h]; omega
    | ⟨1, _⟩ =>
      show 0 ≤ SD.start j idx 1 + SD.window j 1 ∧ SD.start j idx 1 + SD.window j 1 < ((128 : ℕ) : Int)
      rw [start1, window1]; omega
  unfold ScatterDims.resultIdx?
  rw [dif_pos H]
  congr 1
  funext a
  apply Fin.ext
  match a with
  | ⟨0, _⟩ =>
    show (SD.start j idx 0 + SD.window j 0).toNat = m.val
    rw [start0, window0, h]; omega
  | ⟨1, _⟩ =>
    show (SD.start j idx 1 + SD.window j 1).toNat = (j 1).val
    rw [start1, window1]; omega

/-- Two rank-2 indices are equal exactly when their coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- The accumulating scatter at `(n, g)`: the operand there plus the updates `(e, g)` of the edges whose index word is
    `n`. The updates that land on `(n, g)` are those with `dst e = n` and column `g`; the sum over them, written over all
    pairs `(e, b)` with an `if`, collapses on the column (`b = g`) and keeps the `if` on the edge. -/
theorem scatterAdd_apply (x : S10000x128.Idx → EReal) (idx : IVec S640000x1 32) (upd : S640000x128.Idx → EReal)
    (dst : Fin 640000 → Fin 10000) (hidx : ∀ e, (idx (ix2 e 0)).toInt = ((dst e).val : Int)) (n : Fin 10000) (g : Fin 128) :
    Host.scatterAdd (F := Ideal) (φ := .f32) SD x idx upd (ix2 n g)
      = x (ix2 n g) + ∑ e : Fin 640000, if dst e = n then upd (ix2 e g) else 0 := by
  simp only [Host.scatterAdd, Ideal.hostScatterAdd_def]
  unfold Ideal.hostScatterAdd
  refine congrArg (fun t => x (ix2 n g) + t) ?_
  rw [Finset.sum_filter, sum_idx2]
  refine Finset.sum_congr rfl fun e _ => ?_
  have hr : ∀ b : Fin 128, SD.resultIdx? (ix2 e b) idx = some (ix2 (dst e) b) :=
    fun b => resultIdx_eq (ix2 e b) idx (dst e) (hidx e)
  simp only [hr, Option.some.injEq, ix2_inj]
  by_cases hd : dst e = n
  · simp only [hd, true_and, if_true]
    rw [Finset.sum_ite_eq' Finset.univ g (fun b => upd (ix2 e b))]
    simp
  · simp only [hd, false_and, if_false]
    exact Finset.sum_const_zero

/-! ## The index words -/

/-- A node number, as a 32-bit word read signed, is itself: it is far below 2³¹. -/
theorem toInt_ofNat_small (m : Nat) (h : m < 10000) : (BitVec.ofNat 32 m).toInt = (m : Int) := by
  rw [BitVec.toInt_eq_toNat_cond, BitVec.toNat_ofNat]
  have hm : m % 2 ^ 32 = m := Nat.mod_eq_of_lt (by omega)
  rw [hm]
  split <;> omega

/-- The scatter's index column is row 1 of the edge table: edge `e`'s destination word, unchanged. -/
theorem v24_apply (x1 : (Sh2 2 640000).Idx → BitVec 32) (e : Fin 640000) :
    Read.val_main_v24 (F := Ideal) x1 (ix2 e 0) = x1 (ix2 1 e) := by
  rw [Read.val_main_v24_apply, Read.val_main_v3_apply, Read.val_main_v2_apply]
  refine congrArg x1 ?_
  funext a
  apply Fin.ext
  match a with
  | ⟨0, _⟩ => rfl
  | ⟨1, _⟩ =>
    show e.val % 640000 = e.val
    exact Nat.mod_eq_of_lt e.isLt

/-! ## The aggregated messages and the joined input -/

/-- The scatter into zeros, at `(n, g)`, is `aggR`: the messages of the edges ending in `n`, summed. The operand is zero,
    each update is the edge's message, and the index word of edge `e` is the number of `dst e`. -/
theorem v25_apply (x0 : (Sh2 10000 128).Idx → EReal) (x1 : (Sh2 2 640000).Idx → BitVec 32) (x2 : (Sh2 256 128).Idx → EReal)
    (x3 : (Sh1 128).Idx → EReal) (src dst : Fin 640000 → Fin 10000)
    (hsrc : ∀ e, x1 (ix2 0 e) = BitVec.ofNat 32 (src e).val) (hdst : ∀ e, x1 (ix2 1 e) = BitVec.ofNat 32 (dst e).val)
    (n : Fin 10000) (g : Fin 128) :
    Read.val_main_v25 (F := Ideal) x0 x1 x2 x3 (ix2 n g) = aggR x0 src dst x2 x3 n g := by
  have hidx : ∀ e : Fin 640000, (Read.val_main_v24 (F := Ideal) x1 (ix2 e 0)).toInt = ((dst e).val : Int) := fun e => by
    rw [v24_apply, hdst]; exact toInt_ofNat_small _ (dst e).isLt
  have h0 : Read.val_main_v23 (F := Ideal) (ix2 n g) = 0 := by
    rw [Read.val_main_v23_apply]; exact Ideal.ofBits_zero_f32
  unfold Read.val_main_v25
  refine (scatterAdd_apply _ _ _ dst hidx n g).trans ?_
  rw [h0, zero_add]
  unfold aggR
  refine Finset.sum_congr rfl fun e _ => ?_
  rw [ref_msg x0 x1 x2 x3 src dst hsrc hdst e g]

/-- The joined input `[feat, agg]` at a column below 128 is the feature table's entry. -/
theorem v26_left (x0 : (Sh2 10000 128).Idx → EReal) (x1 : (Sh2 2 640000).Idx → BitVec 32) (x2 : (Sh2 256 128).Idx → EReal)
    (x3 : (Sh1 128).Idx → EReal) (n : Fin 10000) (k : Fin 256) (h : k.val < 128) :
    Read.val_main_v26 (F := Ideal) x0 x1 x2 x3 (ix2 n k) = x0 (ix2 n ⟨k.val, h⟩) := by
  unfold Read.val_main_v26
  exact concatenate_pair_apply_left (t := S10000x256) (s₁ := S10000x128) (s₂ := S10000x128) 1 _ _ _ (ix2 n k) rfl
    (ix2 n ⟨k.val, h⟩) (fun b => match b with | ⟨0, _⟩ => rfl | ⟨1, _⟩ => rfl)

/-- At a column from 128 on it is the aggregate's entry, 128 columns back. -/
theorem v26_right (x0 : (Sh2 10000 128).Idx → EReal) (x1 : (Sh2 2 640000).Idx → BitVec 32) (x2 : (Sh2 256 128).Idx → EReal)
    (x3 : (Sh1 128).Idx → EReal) (n : Fin 10000) (k : Fin 256) (h : ¬ k.val < 128) :
    Read.val_main_v26 (F := Ideal) x0 x1 x2 x3 (ix2 n k)
      = Read.val_main_v25 (F := Ideal) x0 x1 x2 x3 (ix2 n ⟨k.val - 128, by have := k.isLt; omega⟩) := by
  unfold Read.val_main_v26
  exact concatenate_pair_apply_right (t := S10000x256) (s₁ := S10000x128) (s₂ := S10000x128) 1 _ _ _ (ix2 n k) rfl rfl
    (ix2 n ⟨k.val - 128, by have := k.isLt; omega⟩)
    (fun b hb => match b with
      | ⟨0, _⟩ => rfl
      | ⟨1, _⟩ => absurd rfl hb)
    (by show (k.val - 128) + 128 = k.val; omega)

/-- The reference's result, read at node `n`, column `f`, is `outR` of its arguments, when the edge words are the node
    numbers `src`, `dst`. -/
theorem ref_value (x0 : (Sh2 10000 128).Idx → EReal) (x1 : (Sh2 2 640000).Idx → BitVec 32) (x2 : (Sh2 256 128).Idx → EReal)
    (x3 : (Sh1 128).Idx → EReal) (x4 : (Sh2 256 128).Idx → EReal) (x5 : (Sh1 128).Idx → EReal)
    (src dst : Fin 640000 → Fin 10000)
    (hsrc : ∀ e, x1 (ix2 0 e) = BitVec.ofNat 32 (src e).val) (hdst : ∀ e, x1 (ix2 1 e) = BitVec.ofNat 32 (dst e).val)
    (n : Fin 10000) (f : Fin 128) :
    Cert.ReferenceIdeal.Read.val_main_v30 (F := Ideal) x0 x1 x2 x3 x4 x5 (ix2 n f) = outR x0 src dst x2 x3 x4 x5 n f := by
  -- the last two operations: the matrix product of the joined input with `Wupd`, plus the bias row
  rw [Read.val_main_v30_apply, Read.val_main_v27_apply, Read.val_main_v29_apply, Read.val_main_v28_apply, Ideal.addf_def]
  unfold outR
  have hb : x5 (Read.idx_main_v28 (Read.idx_main_v29 (ix2 n f))) = x5 (ix1 f) :=
    congrArg x5 (funext fun a => match a with | ⟨0, _⟩ => rfl)
  rw [hb]
  refine congrArg (fun t => t + x5 (ix1 f)) ?_
  -- term by term: the joined input at `(n, k)` is `updIn n k`, the weight is `Wupd (k, f)`
  refine Finset.sum_congr rfl fun k _ => ?_
  have hl : Read.lidx_main_v27 (ix2 n f) k = ix2 n k :=
    funext fun a => match a with | ⟨0, _⟩ => rfl | ⟨1, _⟩ => rfl
  have hr : x4 (Read.ridx_main_v27 (ix2 n f) k) = x4 (ix2 k f) :=
    congrArg x4 (funext fun a => match a with | ⟨0, _⟩ => rfl | ⟨1, _⟩ => rfl)
  rw [hl, hr]
  refine congrArg (fun t => t * x4 (ix2 k f)) ?_
  unfold updIn
  split
  · next h => exact v26_left x0 x1 x2 x3 n k h
  · next h =>
    rw [v26_right x0 x1 x2 x3 n k h]
    exact v25_apply x0 x1 x2 x3 src dst hsrc hdst n _

end Cert.RefValue

end
-- ==== Proof.HostArrays.lean ====
import proofs.«408216_j9105330668111_1_alg».proof.Proof.Gen.KernelIdeal.Frame
import proofs.«408216_j9105330668111_1_alg».proof.Proof.Spec
import Idealize.ShloMosaic.Lib.Pipeline.Value
import Idealize.ShloMosaic.Lib.StableHlo.Run
import Idealize.ShloMosaic.Lib.ValueLayout
import Idealize.ShloMosaic.Lib.KernelVsHost

noncomputable section

namespace Cert.KernelIdeal.Host

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable [Cert.KernelIdeal.Facts]
variable (m : (ℓ : Loc nD τ sig) → Buf (Elt Ideal) ℓ) (ρ : Dev nD → PrngReg)

/-! ## The arguments at the first region's exit: nothing before it writes an argument -/

theorem W6_arg0 (c : Dev nD) :
    W6 (F := Ideal) m ρ c (Proc.devRef .tc main_arg0) = m ((c : Thread nD τ).loc main_arg0) := by
  rw [W6_of_ne m ρ c main_arg0 (by decide)]
  show StableHlo.after hostOps0_4 _ (Proc.devRef .tc main_arg0) = _
  after_results

theorem W6_arg2 (c : Dev nD) :
    W6 (F := Ideal) m ρ c (Proc.devRef .tc main_arg2) = m ((c : Thread nD τ).loc main_arg2) := by
  rw [W6_of_ne m ρ c main_arg2 (by decide)]
  show StableHlo.after hostOps0_4 _ (Proc.devRef .tc main_arg2) = _
  after_results

theorem W6_arg3 (c : Dev nD) :
    W6 (F := Ideal) m ρ c (Proc.devRef .tc main_arg3) = m ((c : Thread nD τ).loc main_arg3) := by
  rw [W6_of_ne m ρ c main_arg3 (by decide)]
  show StableHlo.after hostOps0_4 _ (Proc.devRef .tc main_arg3) = _
  after_results

theorem W6_arg4 (c : Dev nD) :
    W6 (F := Ideal) m ρ c (Proc.devRef .tc main_arg4) = m ((c : Thread nD τ).loc main_arg4) := by
  rw [W6_of_ne m ρ c main_arg4 (by decide)]
  show StableHlo.after hostOps0_4 _ (Proc.devRef .tc main_arg4) = _
  after_results

theorem W6_arg5 (c : Dev nD) :
    W6 (F := Ideal) m ρ c (Proc.devRef .tc main_arg5) = m ((c : Thread nD τ).loc main_arg5) := by
  rw [W6_of_ne m ρ c main_arg5 (by decide)]
  show StableHlo.after hostOps0_4 _ (Proc.devRef .tc main_arg5) = _
  after_results

/-! ## A 10000-row table padded by 240 rows of the value `v`, read at a row -/

/-- Inside the table the padded array reads the table; in the 240 rows behind it, the padding value. -/
theorem pad_rows_apply (x : S10000x128.Idx → EReal) (v : S_.Idx → EReal) (n' : Fin 10240) (f : Fin 128) :
    pad S10240x128 ![0, 0] ![240, 0] ![0, 0] x v pads_S10000x128_S10240x128_02400_000 h_S_ (ix2 n' f)
      = if h : n'.val < 10000 then x (ix2 ⟨n'.val, h⟩ f) else v (Shape.Idx.first h_S_) := by
  split
  · rename_i h
    refine pad_apply_of_inside (s := S10000x128) (t := S10240x128) ![0, 0] ![240, 0] ![0, 0] _ _ _ _ (ix2 n' f) (ix2 ⟨n'.val, h⟩ f) (fun a => ?_)
    match a with
    | ⟨0, _⟩ => show n'.val = 0 + n'.val * (0 + 1); omega
    | ⟨1, _⟩ => show f.val = 0 + f.val * (0 + 1); omega
  · rename_i h
    refine pad_apply_of_not_inside (s := S10000x128) (t := S10240x128) ![0, 0] ![240, 0] ![0, 0] _ _ _ _ (ix2 n' f) 0 ?_
    show ¬ (0 ≤ n'.val ∧ (n'.val - 0) % (0 + 1) = 0 ∧ (n'.val - 0) / (0 + 1) < 10000)
    omega

/-! ## What the first region is entered with -/

/-- The node table, rounded (the identity here) and zero-padded to 10240 rows. -/
theorem V5_atom (c : Dev nD) (n' : Fin 10240) (f : Fin 128) :
    V5 (F := Ideal) m ρ c main_v1 (ix2 n' f)
      = padRow (m ((c : Thread nD τ).loc main_arg0)) n' f := by
  show StableHlo.after hostOps0_4 _ (Proc.devRef .tc main_v1) (ix2 n' f) = _
  after_results
  simp only [StableHlo.TRef.ofBuf, StableHlo.TRef.toBuf, cast_eq]
  refine (pad_rows_apply _ _ n' f).trans ?_
  unfold padRow
  split
  · rfl
  · exact sitofp_zero (φ := .bf16)

/-- The source words as a 1 × 640000 row. -/
theorem V5_src (c : Dev nD) (e : Fin 640000) :
    V5 (F := Ideal) m ρ c main_v5 (ix2 0 e) = m ((c : Thread nD τ).loc main_arg1) (ix2 0 e) := by
  show StableHlo.after hostOps0_4 _ (Proc.devRef .tc main_v5) (ix2 0 e) = _
  after_results
  refine (shapeCast_a_1a_apply _ _ 0 e).trans ?_
  refine (shapeCast_1a_a_apply _ _ e).trans ?_
  refine (slice2_axis0_apply 0 _ _ 0 e 0 rfl).trans ?_
  rfl

/-- The destination words as a 1 × 640000 row. -/
theorem V5_dst (c : Dev nD) (e : Fin 640000) :
    V5 (F := Ideal) m ρ c main_v8 (ix2 0 e) = m ((c : Thread nD τ).loc main_arg1) (ix2 1 e) := by
  show StableHlo.after hostOps0_4 _ (Proc.devRef .tc main_v8) (ix2 0 e) = _
  after_results
  refine (shapeCast_a_1a_apply _ _ 0 e).trans ?_
  refine (shapeCast_1a_a_apply _ _ e).trans ?_
  refine (slice2_axis0_apply 1 _ _ 0 e 1 rfl).trans ?_
  rfl

/-! ## What the second region is entered with (the in-degree column apart) -/

/-- The node table zero-padded to 10240 rows. -/
theorem V9_atom (c : Dev nD) (n' : Fin 10240) (f : Fin 128) :
    V9 (F := Ideal) m ρ c main_v2 (ix2 n' f)
      = padRow (m ((c : Thread nD τ).loc main_arg0)) n' f := by
  show StableHlo.after hostOps1_2 _ (Proc.devRef .tc main_v2) (ix2 n' f) = _
  after_results
  rw [W6_of_ne m ρ c main_v2 (by decide)]
  show StableHlo.after hostOps0_4 _ (Proc.devRef .tc main_v2) (ix2 n' f) = _
  after_results
  simp only [StableHlo.TRef.ofBuf, StableHlo.TRef.toBuf, cast_eq]
  refine (pad_rows_apply _ _ n' f).trans ?_
  unfold padRow
  split
  · rfl
  · exact sitofp_zero (φ := .f32)

/-- The first region's output array, untouched by the host operations in between. -/
theorem V9_gsum (c : Dev nD) : V9 (F := Ideal) m ρ c main_v9 = (dat0 (F := Ideal) (V5 m ρ) c).arrAt 3 cfg0.N := by
  show StableHlo.after hostOps1_2 _ (Proc.devRef .tc main_v9) = _
  after_results
  exact W6_arr m ρ c 3

theorem V9_wm1 (c : Dev nD) (k g : Fin 128) :
    V9 (F := Ideal) m ρ c main_v18 (ix2 k g) = m ((c : Thread nD τ).loc main_arg2) (ix2 (lo k) g) := by
  show StableHlo.after hostOps1_2 _ (Proc.devRef .tc main_v18) (ix2 k g) = _
  after_results
  rw [W6_arg2]
  refine (truncf_apply (φ := .f32) (ψ := .bf16) _ _ _).trans ?_
  exact slice2_axis0_apply 0 _ _ k g (lo k) (by simp)

theorem V9_wm2 (c : Dev nD) (k g : Fin 128) :
    V9 (F := Ideal) m ρ c main_v20 (ix2 k g) = m ((c : Thread nD τ).loc main_arg2) (ix2 (hi k) g) := by
  show StableHlo.after hostOps1_2 _ (Proc.devRef .tc main_v20) (ix2 k g) = _
  after_results
  rw [W6_arg2]
  refine (truncf_apply (φ := .f32) (ψ := .bf16) _ _ _).trans ?_
  exact slice2_axis0_apply 128 _ _ k g (hi k) rfl

theorem V9_wu1 (c : Dev nD) (k g : Fin 128) :
    V9 (F := Ideal) m ρ c main_v22 (ix2 k g) = m ((c : Thread nD τ).loc main_arg4) (ix2 (lo k) g) := by
  show StableHlo.after hostOps1_2 _ (Proc.devRef .tc main_v22) (ix2 k g) = _
  after_results
  rw [W6_arg4]
  refine (truncf_apply (φ := .f32) (ψ := .bf16) _ _ _).trans ?_
  exact slice2_axis0_apply 0 _ _ k g (lo k) (by simp)

theorem V9_wu2 (c : Dev nD) (k g : Fin 128) :
    V9 (F := Ideal) m ρ c main_v24 (ix2 k g) = m ((c : Thread nD τ).loc main_arg4) (ix2 (hi k) g) := by
  show StableHlo.after hostOps1_2 _ (Proc.devRef .tc main_v24) (ix2 k g) = _
  after_results
  rw [W6_arg4]
  refine (truncf_apply (φ := .f32) (ψ := .bf16) _ _ _).trans ?_
  exact slice2_axis0_apply 128 _ _ k g (hi k) rfl

theorem V9_bm (c : Dev nD) (g : Fin 128) :
    V9 (F := Ideal) m ρ c main_v25 (ix2 0 g) = m ((c : Thread nD τ).loc main_arg3) (ix1 g) := by
  show StableHlo.after hostOps1_2 _ (Proc.devRef .tc main_v25) (ix2 0 g) = _
  after_results
  rw [W6_arg3]
  exact shapeCast_a_1a_apply _ _ 0 g

theorem V9_bu (c : Dev nD) (g : Fin 128) :
    V9 (F := Ideal) m ρ c main_v26 (ix2 0 g) = m ((c : Thread nD τ).loc main_arg5) (ix1 g) := by
  show StableHlo.after hostOps1_2 _ (Proc.devRef .tc main_v26) (ix2 0 g) = _
  after_results
  rw [W6_arg5]
  exact shapeCast_a_1a_apply _ _ 0 g

/-! ## After the second region -/

/-- The result: the first 10000 rows of the second region's output array. -/
theorem W11_out (c : Dev nD) (n : Fin 10000) (f : Fin 128) :
    W11 (F := Ideal) m ρ c (Proc.devRef .tc main_v28) (ix2 n f) = (dat1 (F := Ideal) (V9 m ρ) c).arrAt 9 cfg1.N (ix2 (row n) f) := by
  show StableHlo.after hostOps2 _ (Proc.devRef .tc main_v28) (ix2 n f) = _
  after_results
  refine (slice2_axis0_apply 0 _ _ n f (row n) (by simp)).trans ?_
  exact congrFun (W10_arr m ρ c 9) (ix2 (row n) f)

end Cert.KernelIdeal.Host
end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Counts.lean ====
/-
  The in-degree column.  Between its two regions the program builds, on the host, the vector whose entry `n` is the
  number of edges that end in node `n`: a scatter-add of the constant one, once per edge, onto a vector of zeros, at the
  position the edge's destination word names; the vector is then extended by 240 zeros and viewed as a column.

  The scatter-add is an exact sum: entry `n` is the operand's entry plus the sum of the updates whose result index is
  `n`.  For this rank-1 scatter the result index of update `e` is the index word of edge `e` read as a signed number, when
  that number is a row of the operand.  A destination word is a node number below 10000, so read signed it is that node
  number, the updates that land on `n` are the edges with `dst e = n`, and the sum of ones over them is `cnt dst n`.
  The index words themselves are row 1 of the edge table, carried through a slice, reshapes that keep the row-major
  position, the first region (which only reads them) and a broadcast to a one-column array.
-/
import proofs.«408216_j9105330668111_1_alg».proof.Proof.Gen.KernelIdeal.Frame
import proofs.«408216_j9105330668111_1_alg».proof.Proof.Spec
import proofs.«408216_j9105330668111_1_alg».proof.Proof.LibColumn
import Idealize.ShloMosaic.Lib.Pipeline.Value
import Idealize.ShloMosaic.Lib.StableHlo.Run
import Idealize.ShloMosaic.Lib.IdealHost
import Idealize.ShloMosaic.Lib.KernelVsHost
import Idealize.ShloMosaic.Lib.ValueIdxRank1

noncomputable section

namespace Cert.KernelIdeal.Host

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable [Cert.KernelIdeal.Facts]
variable (m : (ℓ : Loc nD τ sig) → Buf (Elt Ideal) ℓ) (ρ : Dev nD → PrngReg)

namespace Counts

/-! ## The scatter's result index

Operand: 10000 entries.  Scatter indices: a 640000 × 1 array, the second axis being the index vector's (one component).
Updates: 640000 entries, no window axis.  So update `e` reads its one start component at `(e, 0)`, has window coordinate
zero, and lands at that component read signed, if it lies in `[0, 10000)`. -/

/-- The scatter's dimension numbers. -/
abbrev sd := scatter_S10000_S640000x1_S640000_n_0_0_1

/-- The one coordinate of a rank-1 index built from `e` is `e`, whatever the axis is called. -/
theorem ix1_val {n : Nat} (e : Fin n) (X : Fin (⟨1, ![n]⟩ : Shape).rank) :
    ((ix1 e : (⟨1, ![n]⟩ : Shape).Idx) X).val = e.val := by
  match X with | ⟨0, _⟩ => rfl

/-- Update `e` reads its start component at `(e, 0)` of the scatter indices: the update's coordinate on the first axis,
    the component's number (there is only component 0) on the index vector's axis. -/
theorem siIdx_eq (e : Fin 640000) (c : Fin sd.scatterDimsToOperandDims.length) :
    sd.siIdx (ix1 e) c = ix2 e 0 := by
  funext b
  match b with
  | ⟨0, hb0⟩ =>
    unfold ScatterDims.siIdx
    have h0 : ¬ (((⟨0, hb0⟩ : Fin S640000x1.rank) : ℕ) = sd.indexVectorDim) := by
      show ¬ ((0 : ℕ) = 1); omega
    rw [dif_neg h0]
    unfold ScatterDims.siCoord
    apply Fin.ext
    exact ix1_val e _
  | ⟨1, hb1⟩ =>
    unfold ScatterDims.siIdx
    have h1 : (((⟨1, hb1⟩ : Fin S640000x1.rank) : ℕ) = sd.indexVectorDim) := rfl
    rw [dif_pos h1]
    apply Fin.ext
    have hc : c.val < 1 := c.isLt
    show c.val = 0
    omega

/-- The operand's one axis is an inserted window axis: the window coordinate on it is zero. -/
theorem window_eq (e : Fin 640000) (a : Fin S10000.rank) : sd.window (ix1 e) a = 0 := by
  unfold ScatterDims.window
  have ha : a ∉ sd.sKept := by
    have : a = (0 : Fin 1) := Subsingleton.elim _ _
    subst this; decide
  rw [dif_neg ha]

/-- The start on the operand's one axis is the index word at `(e, 0)`, read signed. -/
theorem start_eq (idx : IVec S640000x1 32) (e : Fin 640000) (a : Fin S10000.rank) :
    sd.start (ix1 e) idx a = (idx (ix2 e 0)).toInt := by
  unfold ScatterDims.start
  have ha : a ∈ sd.scatterDimsToOperandDims := by
    have : a = (0 : Fin 1) := Subsingleton.elim _ _
    subst this; decide
  rw [dif_pos ha, siIdx_eq]

/-- Update `e` lands on entry `n` exactly when its index word, read signed, is `n`. -/
theorem resultIdx_iff (idx : IVec S640000x1 32) (e : Fin 640000) (n : Fin 10000) :
    sd.resultIdx? (ix1 e) idx = some (ix1 n) ↔ (idx (ix2 e 0)).toInt = (n.val : Int) := by
  unfold ScatterDims.resultIdx?
  simp only [start_eq, window_eq]
  have hn := n.isLt
  constructor
  · intro h
    split at h
    · rename_i hz
      have h0 := congrFun (Option.some.inj h) (⟨0, by decide⟩ : Fin S10000.rank)
      have h1 : ((idx (ix2 e 0)).toInt + ((0 : ℕ) : Int)).toNat = n.val := congrArg Fin.val h0
      have h2 : 0 ≤ (idx (ix2 e 0)).toInt + ((0 : ℕ) : Int) := (hz ⟨0, by decide⟩).1
      omega
    · exact absurd h (by simp)
  · intro h
    have hz : ∀ a : Fin 1, 0 ≤ (idx (ix2 e 0)).toInt + ((0 : ℕ) : Int)
        ∧ (idx (ix2 e 0)).toInt + ((0 : ℕ) : Int) < ((![10000] a : ℕ) : Int) := by
      intro a
      have : a = (0 : Fin 1) := Subsingleton.elim _ _
      subst this
      show 0 ≤ (idx (ix2 e 0)).toInt + ((0 : ℕ) : Int) ∧ (idx (ix2 e 0)).toInt + ((0 : ℕ) : Int) < ((10000 : ℕ) : Int)
      omega
    rw [dif_pos hz]
    refine congrArg some (funext fun a => Fin.ext ?_)
    match a with
    | ⟨0, _⟩ =>
      show ((idx (ix2 e 0)).toInt + ((0 : ℕ) : Int)).toNat = n.val
      omega

/-! ## The scatter-add as a count -/

/-- A node number, as a 32-bit word read signed, is the node number: it is far below 2³¹. -/
theorem word_toInt (k : ℕ) (hk : k < 10000) : (BitVec.ofNat 32 k).toInt = (k : Int) := by
  rw [BitVec.toInt_eq_toNat_cond, BitVec.toNat_ofNat]
  have hmod : k % 2 ^ 32 = k := Nat.mod_eq_of_lt (by omega)
  rw [hmod, if_pos (by omega)]

/-- The scatter-add at node `n`, when the index column holds the destination words: the operand's entry plus the
    updates of the edges ending in `n` (the sum over the updates that land on `n`, re-indexed by the edge). -/
theorem scatterAdd_apply (idx : IVec S640000x1 32) (dst : Fin 640000 → Fin 10000)
    (hidx : ∀ e, idx (ix2 e 0) = BitVec.ofNat 32 (dst e).val)
    (x : S10000.Idx → EReal) (upd : S640000.Idx → EReal) (n : Fin 10000) :
    Ideal.hostScatterAdd sd x idx upd (ix1 n) = x (ix1 n) + ∑ e : Fin 640000, if dst e = n then upd (ix1 e) else 0 := by
  unfold Ideal.hostScatterAdd
  refine congrArg (x (ix1 n) + ·) ?_
  rw [Finset.sum_filter, ← Equiv.sum_comp (idxEquiv1 (n := 640000)).symm]
  refine Finset.sum_congr rfl fun e _ => ?_
  show (if sd.resultIdx? (ix1 e) idx = some (ix1 n) then upd (ix1 e) else 0) = _
  have hiff : sd.resultIdx? (ix1 e) idx = some (ix1 n) ↔ dst e = n := by
    rw [resultIdx_iff, hidx, word_toInt _ (dst e).isLt]
    constructor
    · intro h; exact Fin.ext (by exact_mod_cast h)
    · intro h; rw [h]
  exact if_congr hiff rfl rfl

/-! ## The host's operations, one stretch at a time, from any contents `V` -/

section Stretches
variable (V : Valuation τ sig (Elt Ideal))

/-- The column is the padded vector, reshaped. -/
theorem after1_2_v16 :
    (StableHlo.after (hostOps1_2 (F := Ideal)) V (Proc.devRef .tc main_v16) : S10240x1.Idx → EReal)
      = shapeCast S10240x1 (V (Proc.devRef .tc main_v15) : S10240.Idx → EReal) shapeCasts_S10240_S10240x1 := by
  dsimp only [hostOps1_2]
  after_results
  rfl

/-- The padded vector is the scatter-add's result with 240 entries of the padding value appended. -/
theorem after1_1_v15 :
    (StableHlo.after (hostOps1_1 (F := Ideal)) V (Proc.devRef .tc main_v15) : S10240.Idx → EReal)
      = pad S10240 ![0] ![240] ![0] (V (Proc.devRef .tc main_v14) : S10000.Idx → EReal)
          (sitofp (F := Ideal) .f32 (V (Proc.devRef .tc main_c_2) : IVec S_ 32)) pads_S10000_S10240_02400 h_S_ := by
  dsimp only [hostOps1_1]
  after_results
  rfl

/-- The scatter-add's three operands: zeros, the destination words as a one-column array, ones. -/
theorem after1_v14 :
    (StableHlo.after (hostOps1 (F := Ideal)) V (Proc.devRef .tc main_v14) : S10000.Idx → EReal)
      = Host.scatterAdd (F := Ideal) scatter_S10000_S640000x1_S640000_n_0_0_1
          (broadcastInDim S10000 ![] bcast_S_S10000 (constant (F := Ideal) S_ .f32 0x00000000#32))
          (broadcastInDim S640000x1 ![0] bcast_S640000_S640000x1_0
            (shapeCast S640000 (V (Proc.devRef .tc main_v8) : IVec S1x640000 32) shapeCasts_S1x640000_S640000))
          (broadcastInDim S640000 ![] bcast_S_S640000 (constant (F := Ideal) S_ .f32 0x3F800000#32)) := by
  dsimp only [hostOps1]
  after_results
  rfl

/-- The destination words as a 1 × 640000 array: row 1 of the edge table, sliced out, flattened and unflattened. -/
theorem after0_4_v8 :
    (StableHlo.after (hostOps0_4 (F := Ideal)) V (Proc.devRef .tc main_v8) : IVec S1x640000 32)
      = shapeCast S1x640000 (shapeCast S640000
          (extractStridedSlice S1x640000 ![1, 0] (V (Proc.devRef .tc main_arg1) : IVec S2x640000 32) slices_S2x640000_S1x640000_1_0)
          shapeCasts_S1x640000_S640000) shapeCasts_S640000_S1x640000 := by
  dsimp only [hostOps0_4]
  after_results
  rfl

/-- None of the four earlier stretches writes the edge table. -/
theorem after0_3_arg1 :
    StableHlo.after (hostOps0_3 (F := Ideal)) V (Proc.devRef .tc main_arg1) = V (Proc.devRef .tc main_arg1) := by
  dsimp only [hostOps0_3]
  after_results

theorem after0_2_arg1 :
    StableHlo.after (hostOps0_2 (F := Ideal)) V (Proc.devRef .tc main_arg1) = V (Proc.devRef .tc main_arg1) := by
  dsimp only [hostOps0_2]
  after_results

theorem after0_1_arg1 :
    StableHlo.after (hostOps0_1 (F := Ideal)) V (Proc.devRef .tc main_arg1) = V (Proc.devRef .tc main_arg1) := by
  dsimp only [hostOps0_1]
  after_results

theorem after0_0_arg1 :
    StableHlo.after (hostOps0 (F := Ideal)) V (Proc.devRef .tc main_arg1) = V (Proc.devRef .tc main_arg1) := by
  dsimp only [hostOps0]
  after_results

end Stretches

/-! ## The run's contents at the two places the words pass through -/

/-- When the destination words are sliced out, the edge table still holds its launch contents. -/
theorem W4_arg1 (c : Dev nD) :
    W4 (F := Ideal) m ρ c (Proc.devRef .tc main_arg1) = m ((c : Thread nD τ).loc main_arg1) :=
  (after0_3_arg1 _).trans ((after0_2_arg1 _).trans ((after0_1_arg1 _).trans ((after0_0_arg1 _).trans rfl)))

/-- The first region only reads the destination words (they are an input window's array): it leaves them as entered. -/
theorem W6_v8 (c : Dev nD) :
    W6 (F := Ideal) m ρ c (Proc.devRef .tc main_v8) = W5 (F := Ideal) m ρ c (Proc.devRef .tc main_v8) := by
  have h := W6_arr (F := Ideal) m ρ c (2 : Fin 4)
  rw [(dat0 (V5 (F := Ideal) m ρ) c).arrAt_in (2 : Fin 4) rfl, A_eq0] at h
  exact h

/-- The scatter's index column at edge `e` is the edge's destination word: the broadcast reads the vector at `e`; each
    reshape keeps the row-major position `e`; the first region leaves the array alone; the slice reads row 1. -/
theorem idxColumn_apply (c : Dev nD) (dst : Fin 640000 → Fin 10000)
    (hdst : ∀ e, m ((c : Thread nD τ).loc main_arg1) (ix2 1 e) = BitVec.ofNat 32 (dst e).val) (e : Fin 640000) :
    broadcastInDim S640000x1 ![0] bcast_S640000_S640000x1_0
        (shapeCast S640000 (W6 (F := Ideal) m ρ c (Proc.devRef .tc main_v8) : IVec S1x640000 32) shapeCasts_S1x640000_S640000)
        (ix2 e 0)
      = BitVec.ofNat 32 (dst e).val := by
  refine (broadcastInDim_apply _ _ _ (ix2 e 0) (ix1 e) fun a => ?_).trans ?_
  · match a with
    | ⟨0, _⟩ =>
      show e.val = if (640000 : ℕ) = 1 then 0 else e.val
      rw [if_neg (by omega)]
  refine (shapeCast_apply _ _ (ix1 e) (ix2 (0 : Fin 1) e) ?_).trans ?_
  · rw [Shape.rowMajor_val_two, Shape.rowMajor_val_one]
    show 0 * 640000 + e.val = e.val
    omega
  refine (congrFun (W6_v8 m ρ c) (ix2 (0 : Fin 1) e)).trans ?_
  refine (congrFun (after0_4_v8 (W4 (F := Ideal) m ρ c)) (ix2 (0 : Fin 1) e)).trans ?_
  refine (shapeCast_apply _ _ (ix2 (0 : Fin 1) e) (ix1 e) ?_).trans ?_
  · rw [Shape.rowMajor_val_two, Shape.rowMajor_val_one]
    show e.val = 0 * 640000 + e.val
    omega
  refine (shapeCast_apply _ _ (ix1 e) (ix2 (0 : Fin 1) e) ?_).trans ?_
  · rw [Shape.rowMajor_val_two, Shape.rowMajor_val_one]
    show 0 * 640000 + e.val = e.val
    omega
  refine (extractStridedSlice_apply _ _ _ (ix2 (0 : Fin 1) e) (ix2 (1 : Fin 2) e) fun a => ?_).trans ?_
  · match a with
    | ⟨0, _⟩ => rfl
    | ⟨1, _⟩ =>
      show e.val = 0 + e.val
      omega
  rw [W4_arg1]
  exact hdst e

end Counts

open Counts

/-- The in-degree column the second region is entered with: the host's scatter-add of ones by destination word, padded and
    cast to a column, holds at node `n` the number of edges ending there. -/
theorem V9_cnt (c : Dev nD) (dst : Fin 640000 → Fin 10000)
    (hdst : ∀ e, m ((c : Thread nD τ).loc main_arg1) (ix2 1 e) = BitVec.ofNat 32 (dst e).val) (n : Fin 10000) :
    V9 (F := Ideal) m ρ c main_v16 (ix2 (row n) 0) = cnt dst n := by
  -- the column at row `n` is the padded vector at `n`
  have h16 : V9 (F := Ideal) m ρ c main_v16 (ix2 (row n) 0)
      = (W8 (F := Ideal) m ρ c (Proc.devRef .tc main_v15) : S10240.Idx → EReal) (ix1 (row n)) :=
    (congrFun (after1_2_v16 (W8 (F := Ideal) m ρ c)) (ix2 (row n) 0)).trans
      (LibColumn.shapeCast_a_a1_apply _ _ (row n) 0)
  -- below row 10000 the padded vector is the scatter-add's result
  have h15 : (W8 (F := Ideal) m ρ c (Proc.devRef .tc main_v15) : S10240.Idx → EReal) (ix1 (row n))
      = (W7 (F := Ideal) m ρ c (Proc.devRef .tc main_v14) : S10000.Idx → EReal) (ix1 n) :=
    (congrFun (after1_1_v15 (W7 (F := Ideal) m ρ c)) (ix1 (row n))).trans
      (pad_apply_of_inside _ _ _ _ _ _ _ (ix1 (row n)) (ix1 n) fun a => by
        match a with
        | ⟨0, _⟩ =>
          show n.val = 0 + n.val * (0 + 1)
          omega)
  -- the scatter-add of ones onto zeros by destination word counts the edges ending in `n`
  have h14 : (W7 (F := Ideal) m ρ c (Proc.devRef .tc main_v14) : S10000.Idx → EReal) (ix1 n) = cnt dst n := by
    refine (congrFun (after1_v14 (W6 (F := Ideal) m ρ c)) (ix1 n)).trans ?_
    refine (scatterAdd_apply _ dst (idxColumn_apply m ρ c dst hdst) _ _ n).trans ?_
    have hx : broadcastInDim S10000 ![] bcast_S_S10000 (constant (F := Ideal) S_ .f32 0x00000000#32) (ix1 n) = (0 : EReal) :=
      (broadcastInDim_scalar_apply _ _ _).trans Ideal.ofBits_zero_f32
    have hu : ∀ e : Fin 640000,
        broadcastInDim S640000 ![] bcast_S_S640000 (constant (F := Ideal) S_ .f32 0x3F800000#32) (ix1 e) = (1 : EReal) :=
      fun e => (broadcastInDim_scalar_apply _ _ _).trans Ideal.ofBits_one_f32
    rw [hx, zero_add]
    unfold cnt
    exact Finset.sum_congr rfl fun e _ => by rw [hu e]
  exact h16.trans (h15.trans h14)

end Cert.KernelIdeal.Host

end
-- ==== Proof.Region0Pay.lean ====
import proofs.«408216_j9105330668111_1_alg».proof.Proof.Gen.KernelIdeal.Skeleton
import proofs.«408216_j9105330668111_1_alg».proof.Proof.Spec
import Idealize.ShloMosaic.Lib.Pipeline.Value
import Idealize.ShloMosaic.Lib.ValueLayout
import Idealize.ShloMosaic.PureOps.Ideal.Laws

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable [Cert.KernelIdeal.Facts]

/-! ### Words -/

/-- Row `r` of trip `k`'s slab: the row's word plus the trip word times 1280 is the word of `1280 * k + r`
    (both sides are the same residue modulo `2 ^ 32`). -/
theorem slab_word (k r : Nat) :
    IntOp.addi (BitVec.ofNat 32 r) (Scalar.muli (Scalar.addi (0#32) (Scalar.muli (Scf.iv 0#32 1#32 k) 1#32)) 1280#32)
      = BitVec.ofNat 32 (1280 * k + r) := by
  simp only [Scalar.muli, Scalar.addi, IntOp.muli, IntOp.addi, Scf.iv]
  bv_omega

/-- A word equality, widened from one bit to 32 and read as a signed integer, is the real `1` or `0`. -/
theorem onehot_entry (a b : BitVec 32) :
    (FloatOps.sitofp (F := Ideal) .f32 ((IntOp.cmpi .eq a b).setWidth 32) : EReal) = if b = a then 1 else 0 := by
  unfold IntOp.cmpi
  by_cases h : b = a
  · subst h
    rw [if_pos rfl]
    show (((((BitVec.ofBool (b == b)).setWidth 32).toInt : ℤ) : ℝ) : EReal) = 1
    simp
  · rw [if_neg h]
    have h' : (a == b) = false := by
      rw [beq_eq_false_iff_ne]; exact fun e => h e.symm
    show (((((BitVec.ofBool (a == b)).setWidth 32).toInt : ℤ) : ℝ) : EReal) = 0
    rw [h']
    simp

/-! ### The one-hot matrix at an entry -/

/-- Entry `(r, j)` of the one-hot matrix built from a row `v` of words and an offset word `w`: `1` when `v`'s word at `j`
    is the word of row `r` plus `w`, else `0`. -/
theorem onehot_apply (w : BitVec 32) (v : IVec S1x1024 32) (r : Fin 1280) (j : Fin 1024) :
    (truncf .bf16 (sitofp .f32 (extui 32 (cmpi .eq (addi (iota .tc S1280x1024 32 [0] iota_S1280x1024_d0_w32) (broadcast S1280x1024 w))
        (broadcastTo S1280x1024 v broadcasts_S1x1024_S1280x1024)) natLt_1_32)) bitsLt_bf16_f32 : FVec Ideal S1280x1024 .bf16) (ix2 r j)
      = if v (ix2 0 j) = IntOp.addi (BitVec.ofNat 32 r.val) w then 1 else 0 := by
  rw [truncf_apply, sitofp_apply, extui_apply]
  have hi : iota .tc S1280x1024 32 [0] iota_S1280x1024_d0_w32 (ix2 r j) = BitVec.ofNat 32 r.val :=
    iota_single_apply .tc S1280x1024 32 0 iota_S1280x1024_d0_w32 (ix2 r j)
  have hb : broadcastTo S1280x1024 v broadcasts_S1x1024_S1280x1024 (ix2 r j) = v (ix2 0 j) :=
    broadcastTo_1b_ab_apply v broadcasts_S1x1024_S1280x1024 r j
  show FloatOps.sitofp .f32 ((IntOp.cmpi .eq (IntOp.addi (iota .tc S1280x1024 32 [0] iota_S1280x1024_d0_w32 (ix2 r j)) w)
    (broadcastTo S1280x1024 v broadcasts_S1x1024_S1280x1024 (ix2 r j))).setWidth 32) = _
  rw [hi, hb, onehot_entry]

/-! ### The gather product: both operands contracted on their rows -/

theorem lhs_gather_0 (i : S1024x128.Idx) (q : dot_S1280x1024_S1280x128_S1024x128_0_0_1_1_n_n.contr.Idx) :
    (dot_S1280x1024_S1280x128_S1024x128_0_0_1_1_n_n.lhsIdx i q 0).val = (q ⟨0, by decide⟩).val :=
  dot_S1280x1024_S1280x128_S1024x128_0_0_1_1_n_n.lhsIdx_val_of_single rfl i q
theorem lhs_gather_1 (i : S1024x128.Idx) (q : dot_S1280x1024_S1280x128_S1024x128_0_0_1_1_n_n.contr.Idx) :
    (dot_S1280x1024_S1280x128_S1024x128_0_0_1_1_n_n.lhsIdx i q 1).val = (i 0).val := by
  unfold DotDims.lhsIdx
  rw [dif_neg (show ¬(1 : Fin S1280x1024.rank) ∈ dot_S1280x1024_S1280x128_S1024x128_0_0_1_1_n_n.lhsBatch by decide), dif_pos (show (1 : Fin S1280x1024.rank) ∈ dot_S1280x1024_S1280x128_S1024x128_0_0_1_1_n_n.lhsNonContracting by decide)]
  rfl
theorem rhs_gather_0 (i : S1024x128.Idx) (q : dot_S1280x1024_S1280x128_S1024x128_0_0_1_1_n_n.contr.Idx) :
    (dot_S1280x1024_S1280x128_S1024x128_0_0_1_1_n_n.rhsIdx i q 0).val = (q ⟨0, by decide⟩).val :=
  dot_S1280x1024_S1280x128_S1024x128_0_0_1_1_n_n.rhsIdx_val_of_single rfl i q
theorem rhs_gather_1 (i : S1024x128.Idx) (q : dot_S1280x1024_S1280x128_S1024x128_0_0_1_1_n_n.contr.Idx) :
    (dot_S1280x1024_S1280x128_S1024x128_0_0_1_1_n_n.rhsIdx i q 1).val = (i 1).val := by
  unfold DotDims.rhsIdx
  rw [dif_neg (show ¬(1 : Fin S1280x128.rank) ∈ dot_S1280x1024_S1280x128_S1024x128_0_0_1_1_n_n.rhsBatch by decide), dif_pos (show (1 : Fin S1280x128.rank) ∈ dot_S1280x1024_S1280x128_S1024x128_0_0_1_1_n_n.rhsNonContracting by decide)]
  rfl

/-- The product that contracts the rows of both operands, into a zero accumulator: entry `(j, f)` is the sum over the rows `r` of
    `A (r, j) * B (r, f)`. -/
theorem gather_matmul_apply (A : FVec Ideal S1280x1024 .bf16) (B : FVec Ideal S1280x128 .bf16) (j : Fin 1024) (f : Fin 128) :
    matmul dot_S1280x1024_S1280x128_S1024x128_0_0_1_1_n_n none A B (constant (F := Ideal) S1024x128 .f32 0x00000000#32) (ix2 j f)
      = ∑ r : Fin 1280, A (ix2 r j) * B (ix2 r f) := by
  simp only [matmul]
  rw [Ideal.matmul_constant_zero_apply, ← Equiv.sum_comp (contrEquiv1 dot_S1280x1024_S1280x128_S1024x128_0_0_1_1_n_n 1280 rfl rfl).symm]
  refine Finset.sum_congr rfl fun r _ => ?_
  have hk := contrEquiv1_symm_val dot_S1280x1024_S1280x128_S1024x128_0_0_1_1_n_n 1280 rfl rfl r
  have el : dot_S1280x1024_S1280x128_S1024x128_0_0_1_1_n_n.lhsIdx (ix2 j f) ((contrEquiv1 dot_S1280x1024_S1280x128_S1024x128_0_0_1_1_n_n 1280 rfl rfl).symm r) = ix2 r j := funext fun a => Fin.ext (by
    match a with
    | ⟨0, _⟩ => exact (lhs_gather_0 _ _).trans hk
    | ⟨1, _⟩ => exact lhs_gather_1 _ _)
  have er : dot_S1280x1024_S1280x128_S1024x128_0_0_1_1_n_n.rhsIdx (ix2 j f) ((contrEquiv1 dot_S1280x1024_S1280x128_S1024x128_0_0_1_1_n_n 1280 rfl rfl).symm r) = ix2 r f := funext fun a => Fin.ext (by
    match a with
    | ⟨0, _⟩ => exact (rhs_gather_0 _ _).trans hk
    | ⟨1, _⟩ => exact rhs_gather_1 _ _)
  rw [el, er]

/-! ### The scatter product: the ordinary one -/

theorem lhs_scatter_0 (i : S1280x128.Idx) (q : dot_S1280x1024_S1024x128_S1280x128_1_0_0_1_n_n.contr.Idx) :
    (dot_S1280x1024_S1024x128_S1280x128_1_0_0_1_n_n.lhsIdx i q 0).val = (i 0).val := by
  unfold DotDims.lhsIdx
  rw [dif_neg (show ¬(0 : Fin S1280x1024.rank) ∈ dot_S1280x1024_S1024x128_S1280x128_1_0_0_1_n_n.lhsBatch by decide), dif_pos (show (0 : Fin S1280x1024.rank) ∈ dot_S1280x1024_S1024x128_S1280x128_1_0_0_1_n_n.lhsNonContracting by decide)]
  rfl
theorem lhs_scatter_1 (i : S1280x128.Idx) (q : dot_S1280x1024_S1024x128_S1280x128_1_0_0_1_n_n.contr.Idx) :
    (dot_S1280x1024_S1024x128_S1280x128_1_0_0_1_n_n.lhsIdx i q 1).val = (q ⟨0, by decide⟩).val :=
  dot_S1280x1024_S1024x128_S1280x128_1_0_0_1_n_n.lhsIdx_val_of_single rfl i q
theorem rhs_scatter_0 (i : S1280x128.Idx) (q : dot_S1280x1024_S1024x128_S1280x128_1_0_0_1_n_n.contr.Idx) :
    (dot_S1280x1024_S1024x128_S1280x128_1_0_0_1_n_n.rhsIdx i q 0).val = (q ⟨0, by decide⟩).val :=
  dot_S1280x1024_S1024x128_S1280x128_1_0_0_1_n_n.rhsIdx_val_of_single rfl i q
theorem rhs_scatter_1 (i : S1280x128.Idx) (q : dot_S1280x1024_S1024x128_S1280x128_1_0_0_1_n_n.contr.Idx) :
    (dot_S1280x1024_S1024x128_S1280x128_1_0_0_1_n_n.rhsIdx i q 1).val = (i 1).val := by
  unfold DotDims.rhsIdx
  rw [dif_neg (show ¬(1 : Fin S1024x128.rank) ∈ dot_S1280x1024_S1024x128_S1280x128_1_0_0_1_n_n.rhsBatch by decide), dif_pos (show (1 : Fin S1024x128.rank) ∈ dot_S1280x1024_S1024x128_S1280x128_1_0_0_1_n_n.rhsNonContracting by decide)]
  rfl

/-- The ordinary product into a zero accumulator: entry `(r, f)` is the sum over `j` of `A (r, j) * B (j, f)`. -/
theorem scatter_matmul_apply (A : FVec Ideal S1280x1024 .bf16) (B : FVec Ideal S1024x128 .bf16) (r : Fin 1280) (f : Fin 128) :
    matmul dot_S1280x1024_S1024x128_S1280x128_1_0_0_1_n_n none A B (constant (F := Ideal) S1280x128 .f32 0x00000000#32) (ix2 r f)
      = ∑ j : Fin 1024, A (ix2 r j) * B (ix2 j f) := by
  simp only [matmul]
  rw [Ideal.matmul_constant_zero_apply, ← Equiv.sum_comp (contrEquiv1 dot_S1280x1024_S1024x128_S1280x128_1_0_0_1_n_n 1024 rfl rfl).symm]
  refine Finset.sum_congr rfl fun j _ => ?_
  have hk := contrEquiv1_symm_val dot_S1280x1024_S1024x128_S1280x128_1_0_0_1_n_n 1024 rfl rfl j
  have el : dot_S1280x1024_S1024x128_S1280x128_1_0_0_1_n_n.lhsIdx (ix2 r f) ((contrEquiv1 dot_S1280x1024_S1024x128_S1280x128_1_0_0_1_n_n 1024 rfl rfl).symm j) = ix2 r j := funext fun a => Fin.ext (by
    match a with
    | ⟨0, _⟩ => exact lhs_scatter_0 _ _
    | ⟨1, _⟩ => exact (lhs_scatter_1 _ _).trans hk)
  have er : dot_S1280x1024_S1024x128_S1280x128_1_0_0_1_n_n.rhsIdx (ix2 r f) ((contrEquiv1 dot_S1280x1024_S1024x128_S1280x128_1_0_0_1_n_n 1024 rfl rfl).symm j) = ix2 j f := funext fun a => Fin.ext (by
    match a with
    | ⟨0, _⟩ => exact (rhs_scatter_0 _ _).trans hk
    | ⟨1, _⟩ => exact rhs_scatter_1 _ _)
  rw [el, er]

/-! ### The four payloads -/

/-- The zero fill of the output buffer. -/
theorem pay1_apply (y : S10240x128.Idx) : k0_pay1 (F := Ideal) y = 0 := by
  unfold k0_pay1
  rw [broadcast_apply]
  exact Ideal.ofBits_zero_f32

/-- The zero fill of the gather accumulator. -/
theorem pay2_apply (y : S1024x128.Idx) : k0_pay2 (F := Ideal) y = 0 := by
  unfold k0_pay2
  rw [shapeCast_self, broadcast_apply]
  exact Ideal.ofBits_zero_f32

/-- One trip of the gather loop: the accumulator plus, for edge `j` of the tile, the row of the trip's 1280-row slab of the
    node table that the edge's source word selects (a one-hot product: a sum of `if`s over the slab's rows). -/
theorem pay3_apply (v7 : Vec Ideal S1x1024 .i32) (k : Fin k0_t1_loop.trips) (v24 : Vec Ideal S1280x128 .bf16)
    (v33 : Vec Ideal S1024x128 .f32) (j : Fin 1024) (f : Fin 128) :
    k0_pay3 (F := Ideal) v7 k v24 v33 (ix2 j f)
      = v33 (ix2 j f) + ∑ r : Fin 1280, if v7 (ix2 0 j) = BitVec.ofNat 32 (1280 * k.val + r.val) then v24 (ix2 r f) else 0 := by
  unfold k0_pay3
  simp only [shapeCast_self]
  rw [addf_apply, gather_matmul_apply]
  refine congrArg (v33 (ix2 j f) + ·) (Finset.sum_congr rfl fun r _ => ?_)
  rw [onehot_apply, slab_word, ite_mul, one_mul, zero_mul]

/-- One trip of the scatter loop: the trip's 1280-row slab of the output plus, for its row `r`, the gathered rows of the tile's
    edges whose destination word is that row's node number. -/
theorem pay4_apply (v12 : Vec Ideal S1024x128 .f32) (v14 : Vec Ideal S1x1024 .i32) (k : Fin k0_t2_loop.trips)
    (v32 : Vec Ideal S1280x128 .f32) (r : Fin 1280) (f : Fin 128) :
    k0_pay4 (F := Ideal) v12 v14 k v32 (ix2 r f)
      = v32 (ix2 r f) + ∑ j : Fin 1024, if v14 (ix2 0 j) = BitVec.ofNat 32 (1280 * k.val + r.val) then v12 (ix2 j f) else 0 := by
  unfold k0_pay4
  simp only [shapeCast_self]
  rw [addf_apply, scatter_matmul_apply]
  refine congrArg (v32 (ix2 r f) + ·) (Finset.sum_congr rfl fun j _ => ?_)
  rw [onehot_apply, slab_word, truncf_apply, ite_mul, one_mul, zero_mul]

end Cert.KernelIdeal.R0

end
-- ==== Proof.Region0Body.lean ====
import proofs.«408216_j9105330668111_1_alg».proof.Proof.Gen.KernelIdeal.Frame
import proofs.«408216_j9105330668111_1_alg».proof.Proof.Spec
import proofs.«408216_j9105330668111_1_alg».proof.Proof.Region0Pay
import Idealize.ShloMosaic.Lib.WritesUnit

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.Spec
open Idealize.ShloMosaic.Tactic

variable [Cert.KernelIdeal.Facts]

namespace Body

section Trip
variable {F : FTy → Type} [FloatOps F]

/-- One trip of the scatter loop stores ONE piece: through the trip's 1280-row slab, the payload of what the slab held. -/
theorem tripL_t2_eq (𝒱 : Variants) (c : Dev nD) (bd : Option 𝒱.V) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole)
    (v12 : Vec F S1024x128 .f32) (v14 : Vec F S1x1024 .i32) (k : Fin k0_t2_loop.trips) (f4 : BufTy.Contents (Elt F) arg4.view.ty) :
    tripL_k0_t2 (F := F) 𝒱 c bd i arg1 harg1 arg2 harg2 arg3 harg3 arg4 harg4 arg5 harg5 v12 v14 k f4
      = [⟨Rect.unit (s := S10240x128) (k0_off2 k) S1280x128.size (k0_off2_inb k),
          k0_pay4 v12 v14 k (View.readAt (Elt F) arg4.view (Rect.unit (s := S10240x128) (k0_off2 k) S1280x128.size (k0_off2_inb k)).toLoadRect f4)⟩] := by
  unfold tripL_k0_t2 trip_k0_t2
  rfl

/-- One trip of the gather loop stores ONE piece: through the whole accumulator, the payload of the trip's slab of the table
    and of what the accumulator held. -/
theorem tripL_t1_eq (𝒱 : Variants) (c : Dev nD) (bd : Option 𝒱.V) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole)
    (v7 : Vec F S1x1024 .i32) (X1 : BufTy.Contents (Elt F) arg1.view.ty) (k : Fin k0_t1_loop.trips) (f5 : BufTy.Contents (Elt F) arg5.view.ty) :
    tripL_k0_t1 (F := F) 𝒱 c bd i arg1 harg1 arg2 harg2 arg3 harg3 arg4 harg4 arg5 harg5 v7 X1 k f5
      = [⟨Rect.unit (s := S1024x128) ![0, 0] S1024x128.size inb_S1024x128_S1024x128_0_0,
          k0_pay3 v7 k (View.readAt (Elt F) arg1.view (Rect.unit (s := S10240x128) (k0_off1 k) S1280x128.size (k0_off1_inb k)).toLoadRect X1)
            (View.readAt (Elt F) arg5.view (Rect.unit (s := S1024x128) ![0, 0] S1024x128.size inb_S1024x128_S1024x128_0_0).toLoadRect f5)⟩] := by
  unfold tripL_k0_t1 trip_k0_t1
  rfl
end Trip

/-! ## Small facts -/

/-- The place in a rank-2 buffer of local index `x` of a unit-stride rectangle of whole rows from row `o`: row `o` plus
    `x`'s row, `x`'s column. -/
theorem unit_idx2 {d : Fin 2 → ℕ} {off size : Fin 2 → ℕ} {o : ℕ} (inb : ∀ a : Fin 2, off a + size a ≤ d a)
    (x : (Rect.unit (s := ⟨2, d⟩) off size inb).shape.Idx) (y : (⟨2, d⟩ : Shape).Idx) (hoff : off = ![o, 0])
    (h0 : (y (0 : Fin 2)).val = o + (x (0 : Fin 2)).val) (h1 : (y (1 : Fin 2)).val = (x (1 : Fin 2)).val) :
    (Rect.unit (s := ⟨2, d⟩) off size inb).toLoadRect.idx x = y := by
  subst hoff
  funext a
  refine Fin.ext ?_
  show (![o, 0] : Fin 2 → ℕ) a + 1 * (x a).val = (y a).val
  rw [Nat.one_mul]
  revert a
  exact Fin.forall_fin_two.mpr ⟨h0.symm, by rw [h1]; exact Nat.zero_add _⟩

/-- Both loops make eight trips. -/
theorem trips1_eq : k0_t1_loop.trips = 8 := by decide +kernel
theorem trips2_eq : k0_t2_loop.trips = 8 := by decide +kernel

/-- Eight slabs of 1280 rows are the 10240 rows: row `r` of slab `k'` is row number `1280 * k' + r`. -/
theorem sum_slabs (g : ℕ → EReal) :
    ∑ k' ∈ Finset.range 8, ∑ r : Fin 1280, g (1280 * k' + r.val) = ∑ n' : Fin 10240, g n'.val := by
  rw [Finset.sum_range (fun k' => ∑ r : Fin 1280, g (1280 * k' + r.val))]
  rw [← Fintype.sum_prod_type' (fun (a : Fin 8) (b : Fin 1280) => g (1280 * a.val + b.val))]
  refine Eq.trans ?_ (Equiv.sum_comp (finProdFinEquiv (m := 8) (n := 1280)) (fun n' : Fin (8 * 1280) => g n'.val))
  refine Finset.sum_congr rfl fun p _ => ?_
  rw [finProdFinEquiv_apply_val, Nat.add_comm]

/-- Row `m` of the node table as edge `j` of the tile selects it: its entry at feature `f` if the edge's source word is
    `m`, zero otherwise (and zero past the table's last row). -/
def selRow (v7 : Vec Ideal S1x1024 .i32) (x0 : Vec Ideal S10240x128 .bf16) (j : Fin 1024) (f : Fin 128) (m : ℕ) : EReal :=
  if hm : m < 10240 then (if v7 (ix2 0 j) = BitVec.ofNat 32 m then x0 (ix2 ⟨m, hm⟩ f) else 0) else 0

section Loops
variable (c : Dev nD) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole)

/-! ## The gather loop: after `k` trips the accumulator holds what it held plus the first `k` slabs' selections -/

theorem loop1_read (v7 : Vec Ideal S1x1024 .i32) (x0 : Vec Ideal S10240x128 .bf16) (G5 : BufTy.Contents (Elt Ideal) arg5.view.ty) :
    ∀ k, k ≤ k0_t1_loop.trips → ∀ (j : Fin 1024) (f : Fin 128),
      arg5.view.read (Elt Ideal) (arg5.view.writes (Elt Ideal) G5 (pb_k0_t1 (F := Ideal) Variants.none c none i arg1 harg1 arg2 harg2 arg3 harg3 arg4 harg4 arg5 harg5 v7 (harg1.unread x0) G5 k)) (ix2 j f)
        = arg5.view.read (Elt Ideal) G5 (ix2 j f) + ∑ k' ∈ Finset.range k, ∑ r : Fin 1280, selRow v7 x0 j f (1280 * k' + r.val) := by
  intro k
  induction k with
  | zero =>
    intro _ j f
    rw [Finset.range_zero, Finset.sum_empty, add_zero]
    rfl
  | succ k ih =>
    intro hk j f
    have hk' : k < k0_t1_loop.trips := hk
    have ih' := ih (Nat.le_of_lt hk')
    have h8 : k < 8 := Nat.lt_of_lt_of_le hk' k0_t1_abs.2.1
    rw [pb_k0_t1_succ (F := Ideal) Variants.none c none i arg1 harg1 arg2 harg2 arg3 harg3 arg4 harg4 arg5 harg5 v7 (harg1.unread x0) G5 ⟨k, hk'⟩, tripL_t1_eq,
      List.singleton_append]
    rw [View.read_writes_cons_rows_of_mem arg5.view G5 inb_S1024x128_S1024x128_0_0 _ _ (ix2 j f) (ix2 j f) rfl
      (Nat.zero_add _).symm rfl]
    rw [pay3_apply, View.readAt_apply,
      unit_idx2 inb_S1024x128_S1024x128_0_0 (ix2 j f) (ix2 j f) rfl (Nat.zero_add _).symm rfl,
      ih' j f, Finset.sum_range_succ, add_assoc]
    congr 2
    refine Finset.sum_congr rfl fun r _ => ?_
    have hm : 1280 * k + r.val < 10240 := by have := r.isLt; omega
    unfold selRow
    rw [dif_pos hm, View.readAt_apply, harg1.read_unread,
      unit_idx2 (k0_off1_inb ⟨k, hk'⟩) (ix2 r f) (ix2 ⟨1280 * k + r.val, hm⟩ f) (k0_off1_eq ⟨k, hk'⟩) rfl rfl]

/-! ## The scatter loop: after `k` trips the first `k` slabs hold what they held plus their rows' sums, the rest is untouched -/

theorem loop2_read (v12 : Vec Ideal S1024x128 .f32) (v14 : Vec Ideal S1x1024 .i32) (G4 : BufTy.Contents (Elt Ideal) arg4.view.ty) :
    ∀ k, k ≤ k0_t2_loop.trips → ∀ (n : Fin 10240) (f : Fin 128),
      arg4.view.read (Elt Ideal) (arg4.view.writes (Elt Ideal) G4 (pb_k0_t2 (F := Ideal) Variants.none c none i arg1 harg1 arg2 harg2 arg3 harg3 arg4 harg4 arg5 harg5 v12 v14 G4 k)) (ix2 n f)
        = if n.val < 1280 * k then
            arg4.view.read (Elt Ideal) G4 (ix2 n f) + ∑ j : Fin 1024, (if v14 (ix2 0 j) = BitVec.ofNat 32 n.val then v12 (ix2 j f) else 0)
          else arg4.view.read (Elt Ideal) G4 (ix2 n f) := by
  intro k
  induction k with
  | zero =>
    intro _ n f
    rw [if_neg (by omega)]
    rfl
  | succ k ih =>
    intro hk n f
    have hk' : k < k0_t2_loop.trips := hk
    have ih' := ih (Nat.le_of_lt hk')
    have hoff : k0_off2 ⟨k, hk'⟩ = ![1280 * k, 0] := k0_off2_eq ⟨k, hk'⟩
    have hW : S1280x128.size (0 : Fin 2) = 1280 := rfl
    rw [pb_k0_t2_succ (F := Ideal) Variants.none c none i arg1 harg1 arg2 harg2 arg3 harg3 arg4 harg4 arg5 harg5 v12 v14 G4 ⟨k, hk'⟩, tripL_t2_eq, List.singleton_append]
    by_cases hlo : n.val < 1280 * k
    · rw [View.read_writes_cons_rows_of_not_mem arg4.view G4 (k0_off2_inb ⟨k, hk'⟩) _ _ (ix2 n f) hoff hW (Or.inl hlo),
        ih' n f, if_pos hlo, if_pos (by omega)]
    · by_cases hhi : n.val < 1280 * (k + 1)
      · have hr : n.val - 1280 * k < 1280 := by omega
        have hn : 1280 * k + (n.val - 1280 * k) = n.val := by omega
        rw [View.read_writes_cons_rows_of_mem arg4.view G4 (k0_off2_inb ⟨k, hk'⟩) _ _ (ix2 n f) (ix2 ⟨n.val - 1280 * k, hr⟩ f) hoff
          hn.symm rfl]
        rw [pay4_apply, View.readAt_apply,
          unit_idx2 (k0_off2_inb ⟨k, hk'⟩) (ix2 ⟨n.val - 1280 * k, hr⟩ f) (ix2 n f) hoff hn.symm rfl,
          ih' n f, if_neg hlo, if_pos hhi]
        rw [show 1280 * (⟨k, hk'⟩ : Fin k0_t2_loop.trips).val + (⟨n.val - 1280 * k, hr⟩ : Fin 1280).val = n.val from hn]
      · have hge : 1280 * k + 1280 ≤ n.val := by omega
        rw [View.read_writes_cons_rows_of_not_mem arg4.view G4 (k0_off2_inb ⟨k, hk'⟩) _ _ (ix2 n f) hoff hW (Or.inr hge),
          ih' n f, if_neg hlo, if_neg hhi]

end Loops

section Cores
variable (c : Dev nD) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole)

/-- A load through the whole buffer (the unit rectangle at zero offsets) of a whole memref's contents reads them. -/
theorem readAt_whole_unread {s : Shape} {e : EltTy} (m : Memref sig .tc .vmem s e) (h : m.IsWhole) (X : s.Idx → Elt Ideal e)
    {off : Fin s.rank → ℕ} (hz : off = fun _ => 0) (inb : ∀ a, off a + s.size a ≤ s.size a) :
    View.readAt (Elt Ideal) m.view (Rect.unit off s.size inb).toLoadRect (h.unread X) = X := by
  rw [View.readAt_eq_ld, h.read_unread]
  exact View.ld_unit_zero hz inb X

theorem zero_off2 : (![0, 0] : Fin 2 → ℕ) = fun _ => 0 := by
  funext a; fin_cases a <;> rfl

/-- After the gather loop over a zeroed accumulator, entry `(j, f)` is the row of the node table that edge `j`'s source word
    selects: the sum over all 10240 rows of the one-hot selection. -/
theorem scratch_read_core (x0 : Vec Ideal S10240x128 .bf16) (x1 : Vec Ideal S1x1024 .i32) (v7 : Vec Ideal S1x1024 .i32) (h7 : v7 = x1)
    (G5 : BufTy.Contents (Elt Ideal) arg5.view.ty) (hG5 : ∀ (j : Fin 1024) (f : Fin 128), arg5.view.read (Elt Ideal) G5 (ix2 j f) = 0)
    (j : Fin 1024) (f : Fin 128) :
    arg5.view.read (Elt Ideal) (arg5.view.writes (Elt Ideal) G5 (pb_k0_t1 (F := Ideal) Variants.none c none i arg1 harg1 arg2 harg2 arg3 harg3 arg4 harg4 arg5 harg5 v7 (harg1.unread x0) G5 k0_t1_loop.trips)) (ix2 j f)
      = ∑ n' : Fin 10240, if x1 (ix2 0 j) = BitVec.ofNat 32 n'.val then x0 (ix2 n' f) else 0 := by
  subst h7
  rw [loop1_read c i arg1 harg1 arg2 harg2 arg3 harg3 arg4 harg4 arg5 harg5 v7 x0 G5 _ (le_refl _) j f, hG5 j f, zero_add, trips1_eq, sum_slabs]
  refine Finset.sum_congr rfl fun n' _ => ?_
  unfold selRow
  rw [dif_pos n'.isLt]

/-- After the scatter loop, entry `(n, f)` is what it was plus the tile's one-hot sums for node row `n`. -/
theorem body_read_core (x0 : Vec Ideal S10240x128 .bf16) (x1 : Vec Ideal S1x1024 .i32) (x2 : Vec Ideal S1x1024 .i32)
    (G4 : BufTy.Contents (Elt Ideal) arg4.view.ty) (v12 : Vec Ideal S1024x128 .f32) (v14 : Vec Ideal S1x1024 .i32)
    (h12 : ∀ (j : Fin 1024) (f : Fin 128), v12 (ix2 j f) = ∑ n' : Fin 10240, if x1 (ix2 0 j) = BitVec.ofNat 32 n'.val then x0 (ix2 n' f) else 0)
    (h14 : v14 = x2) (n : Fin 10240) (f : Fin 128) :
    arg4.view.read (Elt Ideal) (arg4.view.writes (Elt Ideal) G4 (pb_k0_t2 (F := Ideal) Variants.none c none i arg1 harg1 arg2 harg2 arg3 harg3 arg4 harg4 arg5 harg5 v12 v14 G4 k0_t2_loop.trips)) (ix2 n f)
      = arg4.view.read (Elt Ideal) G4 (ix2 n f) + tileSum x0 x1 x2 n f := by
  subst h14
  rw [loop2_read c i arg1 harg1 arg2 harg2 arg3 harg3 arg4 harg4 arg5 harg5 v12 v14 G4 _ (le_refl _) n f, trips2_eq, if_pos (by have := n.isLt; omega)]
  unfold tileSum
  congr 1
  refine Finset.sum_congr rfl fun j _ => ?_
  rw [h12 j f]

end Cores

end Body

open Body

/-- The first grid point (the output is zeroed first): the output buffer ends at the tile's one-hot sums. -/
theorem out0_A_3_apply (c : Dev nD) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole) (hc0 : cond0_0 i)
    (x0 : Vec Ideal S10240x128 .bf16) (x1 : Vec Ideal S1x1024 .i32) (x2 : Vec Ideal S1x1024 .i32) (n : Fin 10240) (f : Fin 128) :
    out0_A_3 (F := Ideal) c i arg1 harg1 arg2 harg2 arg3 harg3 arg4 harg4 arg5 harg5 hc0 x0 x1 x2 (ix2 n f) = tileSum x0 x1 x2 n f := by
  unfold out0_A_3
  rw [View.read_writes_apply_eq VO0_3 _ arg4.view arg4.view.junk (ix2 n f) _ (cover0_A_3 c i arg1 harg1 arg2 harg2 arg3 harg3 arg4 harg4 arg5 harg5 hc0 x0 x1 x2 (ix2 n f))]
  unfold kernelRun0_A
  dsimp only
  sl_unfold_words
  rw [View.writes_append]
  refine (body_read_core c i arg1 harg1 arg2 harg2 arg3 harg3 arg4 harg4 arg5 harg5 x0 x1 x2 _ _ _ ?h12 ?h14 n f).trans ?_
  case h14 => exact readAt_whole_unread arg3 harg3 x2 zero_off2 inb_S1x1024_S1x1024_0_0
  case h12 =>
    intro j f
    rw [View.readAt_apply, unit_idx2 inb_S1024x128_S1024x128_0_0 (ix2 j f) (ix2 j f) rfl (Nat.zero_add _).symm rfl, View.writes_append]
    refine scratch_read_core c i arg1 harg1 arg2 harg2 arg3 harg3 arg4 harg4 arg5 harg5 x0 x1 _ (readAt_whole_unread arg2 harg2 x1 zero_off2 inb_S1x1024_S1x1024_0_0) _ ?_ j f
    intro j f
    rw [View.read_writes_cons_rows_of_mem arg5.view _ inb_S1024x128_S1024x128_0_0 _ _ (ix2 j f) (ix2 j f) rfl (Nat.zero_add _).symm rfl]
    exact pay2_apply (ix2 j f)
  rw [View.read_writes_cons_rows_of_mem arg4.view _ inb_S10240x128_S10240x128_0_0 _ _ (ix2 n f) (ix2 n f) rfl (Nat.zero_add _).symm rfl,
    pay1_apply, zero_add]

/-- A later grid point: the tile's one-hot sums are added to what the buffer held. -/
theorem out0_B_3_apply (c : Dev nD) (i : grid0.Coords) (arg1 : Memref sig .tc .vmem S10240x128 .bf16) (harg1 : arg1.IsWhole) (arg2 : Memref sig .tc .vmem S1x1024 .i32) (harg2 : arg2.IsWhole) (arg3 : Memref sig .tc .vmem S1x1024 .i32) (harg3 : arg3.IsWhole) (arg4 : Memref sig .tc .vmem S10240x128 .f32) (harg4 : arg4.IsWhole) (arg5 : Memref sig .tc .vmem S1024x128 .f32) (harg5 : arg5.IsWhole) (hc0 : ¬cond0_0 i)
    (x0 : Vec Ideal S10240x128 .bf16) (x1 : Vec Ideal S1x1024 .i32) (x2 : Vec Ideal S1x1024 .i32) (xo3 : Vec Ideal S10240x128 .f32)
    (n : Fin 10240) (f : Fin 128) :
    out0_B_3 (F := Ideal) c i arg1 harg1 arg2 harg2 arg3 harg3 arg4 harg4 arg5 harg5 hc0 x0 x1 x2 xo3 (ix2 n f) = xo3 (ix2 n f) + tileSum x0 x1 x2 n f := by
  unfold out0_B_3
  rw [View.read_writes_apply_eq VO0_3 _ arg4.view (harg4.unread xo3) (ix2 n f) _ (cover0_B_3 c i arg1 harg1 arg2 harg2 arg3 harg3 arg4 harg4 arg5 harg5 hc0 x0 x1 x2 xo3 (ix2 n f))]
  unfold kernelRun0_B
  dsimp only
  sl_unfold_words
  refine (body_read_core c i arg1 harg1 arg2 harg2 arg3 harg3 arg4 harg4 arg5 harg5 x0 x1 x2 _ _ _ ?h12 ?h14 n f).trans ?_
  case h14 => exact readAt_whole_unread arg3 harg3 x2 zero_off2 inb_S1x1024_S1x1024_0_0
  case h12 =>
    intro j f
    rw [View.readAt_apply, unit_idx2 inb_S1024x128_S1024x128_0_0 (ix2 j f) (ix2 j f) rfl (Nat.zero_add _).symm rfl, View.writes_append]
    refine scratch_read_core c i arg1 harg1 arg2 harg2 arg3 harg3 arg4 harg4 arg5 harg5 x0 x1 _ (readAt_whole_unread arg2 harg2 x1 zero_off2 inb_S1x1024_S1x1024_0_0) _ ?_ j f
    intro j f
    rw [View.read_writes_cons_rows_of_mem arg5.view _ inb_S1024x128_S1024x128_0_0 _ _ (ix2 j f) (ix2 j f) rfl (Nat.zero_add _).symm rfl]
    exact pay2_apply (ix2 j f)
  rw [harg4.read_unread]

end Cert.KernelIdeal.R0

end
-- ==== Proof.Region0Acc.lean ====
/-
  The first region's output array after all 625 grid points.

  The output window's block is the whole 10240×128 array at every point and is written back once, after the last point, so
  the array ends at what the output buffer holds then.  The buffer is zeroed at the first point and every point adds its
  tile's one-hot sums (a tile: 1024 consecutive edges), so after point k it holds the sum of tiles 0 … k.  Window 0's block
  is the whole node table; windows 1 and 2 at point t are columns 1024·t … 1024·t + 1023 of the source and destination rows.
  Edge e = 1024·t + j is the pair (tile t, place j), so the sum over the 625 tiles of the sums over their 1024 places is the
  sum over all 640000 edges; the extended reals are an additive commutative monoid, so the sums regroup freely.
-/
import proofs.«408216_j9105330668111_1_alg».proof.Proof.Region0Body
import Idealize.ShloMosaic.Lib.Pipeline.Value

noncomputable section

namespace Cert.KernelIdeal.R0

open Idealize.ShloMosaic Idealize.ShloMosaic.TcCoe Idealize.ShloMosaic.ValueIdx Idealize.SL.Sem
open Idealize.ShloMosaic.Pipeline (Dat)
open Cert.KernelIdeal Cert.KernelIdeal.Gen Cert.Spec

namespace Acc

/-- Where each window's block sits at grid point `t`: the table and the output are one block at the origin; the two
    edge rows are cut into consecutive blocks of 1024 columns, block `t` at point `t`. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

end Acc

variable [Cert.KernelIdeal.Facts]
variable (V : (c : Dev nD) → (b : Ref sig .tc) → Buf (Elt Ideal) ((c : Thread nD τ).loc b))

namespace Acc

/-- Window 0's block is the whole node table at every point. -/
theorem xblk_apply (c : Dev nD) (t : Fin cfg0.N) (n : Fin 10240) (f : Fin 128) :
    (iblk0 V c 0 t : Vec Ideal S10240x128 .bf16) (ix2 n f) = (V c main_v1 : S10240x128.Idx → EReal) (ix2 n f) := by
  unfold iblk0
  rw [View.read_apply]
  show V c main_v1 _ = V c main_v1 _
  congr 1
  funext a
  apply Fin.ext
  match a with
  | ⟨0, _⟩ => show win0_0.index t 0 * 10240 + 1 * n.val = n.val; rw [(idx0 t).1]; omega
  | ⟨1, _⟩ => show win0_0.index t 1 * 128 + 1 * f.val = f.val; rw [(idx0 t).2]; omega

/-- Window 1's block at point `t`: columns `1024·t … 1024·t + 1023` of the source row. -/
theorem sblk_apply (c : Dev nD) (t : Fin cfg0.N) (j : Fin 1024) (e : Fin 640000) (he : e.val = 1024 * t.val + j.val) :
    (iblk0 V c 1 t : Vec Ideal S1x1024 .i32) (ix2 0 j) = (V c main_v5 : S1x640000.Idx → BitVec 32) (ix2 0 e) := by
  unfold iblk0
  rw [View.read_apply]
  show V c main_v5 _ = V c main_v5 _
  congr 1
  funext a
  apply Fin.ext
  match a with
  | ⟨0, _⟩ => show win0_1.index t 0 * 1 + 1 * 0 = 0; rw [(idx1 t).1]
  | ⟨1, _⟩ => show win0_1.index t 1 * 1024 + 1 * j.val = e.val; rw [(idx1 t).2, he]; omega

/-- Window 2's block at point `t`: the same columns of the destination row. -/
theorem dblk_apply (c : Dev nD) (t : Fin cfg0.N) (j : Fin 1024) (e : Fin 640000) (he : e.val = 1024 * t.val + j.val) :
    (iblk0 V c 2 t : Vec Ideal S1x1024 .i32) (ix2 0 j) = (V c main_v8 : S1x640000.Idx → BitVec 32) (ix2 0 e) := by
  unfold iblk0
  rw [View.read_apply]
  show V c main_v8 _ = V c main_v8 _
  congr 1
  funext a
  apply Fin.ext
  match a with
  | ⟨0, _⟩ => show win0_2.index t 0 * 1 + 1 * 0 = 0; rw [(idx2 t).1]
  | ⟨1, _⟩ => show win0_2.index t 1 * 1024 + 1 * j.val = e.val; rw [(idx2 t).2, he]; omega

/-- The one-hot sums of the tile of edges at grid point `t'` (nothing past the last point). -/
def tile (c : Dev nD) (t' : ℕ) (n : Fin 10240) (f : Fin 128) : EReal :=
  if h : t' < cfg0.N then
    tileSum (iblk0 V c 0 ⟨t', h⟩ : Vec Ideal S10240x128 .bf16) (iblk0 V c 1 ⟨t', h⟩ : Vec Ideal S1x1024 .i32)
      (iblk0 V c 2 ⟨t', h⟩ : Vec Ideal S1x1024 .i32) n f
  else 0

/-- After point `k` the output buffer holds the tiles' sums added up to `k`: the first point writes its tile's sums over
    a zeroed buffer, every later one adds its own to what the point before left. -/
theorem outsAt_apply (c : Dev nD) (n : Fin 10240) (f : Fin 128) : ∀ (k : ℕ) (h : k < cfg0.N),
    (outsAt0 V c k h : Vec Ideal S10240x128 .f32) (ix2 n f) = ∑ t' ∈ Finset.range (k + 1), tile V c t' n f
  | 0, h => by
    rw [Finset.sum_range_one]
    refine (congrFun (outsAt0_A V c ⟨0, h⟩ rfl) (ix2 n f)).trans ?_
    refine (out0_A_3_apply c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _)
      ((hcond0_0 ⟨0, h⟩).mpr rfl) (iblk0 V c 0 ⟨0, h⟩) (iblk0 V c 1 ⟨0, h⟩) (iblk0 V c 2 ⟨0, h⟩) n f).trans ?_
    unfold tile
    rw [dif_pos h]
  | k + 1, h => by
    have hN : cfg0.N = 625 := N_0
    have hB : ¬(⟨k + 1, h⟩ : Fin cfg0.N).val % 625 = 0 := by dsimp only; omega
    refine (congrFun (outsAt0_B V c ⟨k + 1, h⟩ hB) (ix2 n f)).trans ?_
    refine (out0_B_3_apply c (grid0.coords ⟨k + 1, h⟩) (ms0_0 ⟨k + 1, h⟩) (hs0_0 ⟨k + 1, h⟩) (ms0_1 ⟨k + 1, h⟩) (hs0_1 ⟨k + 1, h⟩)
      (ms0_2 ⟨k + 1, h⟩) (hs0_2 ⟨k + 1, h⟩) (ms0_3 ⟨k + 1, h⟩) (hs0_3 ⟨k + 1, h⟩) scM0_0 (Memref.isWhole_whole _)
      (fun hc => hB ((hcond0_0 ⟨k + 1, h⟩).mp hc)) (iblk0 V c 0 ⟨k + 1, h⟩) (iblk0 V c 1 ⟨k + 1, h⟩) (iblk0 V c 2 ⟨k + 1, h⟩)
      (outsAt0 V c ((⟨k + 1, h⟩ : Fin cfg0.N).val - 1) (Nat.lt_of_le_of_lt (Nat.sub_le _ _) h)) n f).trans ?_
    rw [Finset.sum_range_succ _ (k + 1)]
    show (outsAt0 V c k (Nat.lt_of_succ_lt h) : Vec Ideal S10240x128 .f32) (ix2 n f) + _ = _
    rw [outsAt_apply c n f k (Nat.lt_of_succ_lt h)]
    unfold tile
    rw [dif_pos h]

theorem h624 : 624 < cfg0.N := by rw [show cfg0.N = 625 from N_0]; decide

/-- The last grid point. -/
abbrev last : Fin cfg0.N := ⟨624, h624⟩

/-- The output's block at the last point is the whole array: what the write-back moves out of a buffer holding `X`
    is `X` read through zero offsets. -/
theorem cut_last (c : Dev nD) (X : Buf (Elt Ideal) ((c : Thread nD τ).loc main_v9)) :
    (cfg0.win 3).cut (grid0.coords last) X = ((cfg0.win 3).blk last).view.read (Elt Ideal) X := by
  have hz' : (fun a => win0_3.index last a * main_v9.ty.shape.size a) = fun _ => 0 := funext fun a => by
    match a with
    | ⟨0, _⟩ => show win0_3.index last 0 * _ = 0; rw [(idx3 last).1, Nat.zero_mul]
    | ⟨1, _⟩ => show win0_3.index last 1 * _ = 0; rw [(idx3 last).2, Nat.zero_mul]
  exact (Memref.read_access_unit_zero (Elt Ideal) main_v9 hz' (fun a => by rw [congrFun hz' a]; simp) X).symm

/-- What the output buffer holds after the last point, as contents of the region's output array. -/
abbrev result (c : Dev nD) : Buf (Elt Ideal) ((c : Thread nD τ).loc main_v9) := outsAt0 V c 624 h624

/-- The one write-back, after the last point, writes it. -/
theorem flushed_eq (c : Dev nD) (t : Fin cfg0.N) (hf : (cfg0.win 3).flush t = true) :
    (dat0 V c).flushed 3 t = ((cfg0.win 3).blk t).view.read (Elt Ideal) (result V c) := by
  have hN : cfg0.N = 625 := N_0
  have h1 : t.val = 624 := by have := (flush0_3 t).mp hf; have := t.isLt; omega
  obtain rfl : t = last := Fin.ext h1
  show (cfg0.win 3).cut (grid0.coords last) ((dat0 V c).after 3 last) = _
  rw [after0_3]
  exact cut_last c (outsAt0 V c 624 h624)

/-- So the output array ends holding what the buffer held after the last point: that point's block covers the array. -/
theorem final (c : Dev nD) : (dat0 V c).arrAt 3 cfg0.N = result V c :=
  (dat0 V c).arrAt_eq_of_cover 3 (result V c) (flushed_eq V c) fun i =>
    ⟨last, (flush0_3 last).mpr rfl, by
      show i ∈ ((View.whole main_v9).slice (win0_3.rect last)).set
      rw [View.set_slice_whole, Rect.mem_set_unit]
      intro a
      have h0 : (i 0 : Nat) < 10240 := (i 0).isLt
      have h1 : (i 1 : Nat) < 128 := (i 1).isLt
      match a with
      | ⟨0, _⟩ =>
        show win0_3.index last 0 * 10240 ≤ (i 0 : Nat) ∧ (i 0 : Nat) < win0_3.index last 0 * 10240 + 10240
        rw [(idx3 last).1]; omega
      | ⟨1, _⟩ =>
        show win0_3.index last 1 * 128 ≤ (i 1 : Nat) ∧ (i 1 : Nat) < win0_3.index last 1 * 128 + 128
        rw [(idx3 last).2]; omega⟩

/-- Edge `1024·t' + j` as the pair (tile `t'`, place `j` in the tile). -/
def edgeEquiv : Fin 625 × Fin 1024 ≃ Fin 640000 := finProdFinEquiv

theorem edgeEquiv_val (t' : Fin 625) (j : Fin 1024) : (edgeEquiv (t', j)).val = 1024 * t'.val + j.val := by
  unfold edgeEquiv
  rw [finProdFinEquiv_apply_val]
  show j.val + 1024 * t'.val = 1024 * t'.val + j.val
  omega

/-- A sum over the 640000 edges, taken tile by tile. -/
theorem sum_edges (g : Fin 640000 → EReal) :
    ∑ e : Fin 640000, g e = ∑ t' : Fin 625, ∑ j : Fin 1024, g (edgeEquiv (t', j)) := by
  rw [← Equiv.sum_comp edgeEquiv g, Fintype.sum_prod_type]

/-- One edge's term of the one-hot sums. -/
def edgeTerm (X : (Sh2 10240 128).Idx → EReal) (S D : (Sh2 1 640000).Idx → BitVec 32) (n : Fin 10240) (f : Fin 128)
    (e : Fin 640000) : EReal :=
  if D (ix2 0 e) = BitVec.ofNat 32 n.val
    then (∑ n' : Fin 10240, if S (ix2 0 e) = BitVec.ofNat 32 n'.val then X (ix2 n' f) else 0) else 0

theorem gsK_eq (X : (Sh2 10240 128).Idx → EReal) (S D : (Sh2 1 640000).Idx → BitVec 32) (n : Fin 10240) (f : Fin 128) :
    gsK X S D n f = ∑ e : Fin 640000, edgeTerm X S D n f e := by
  unfold gsK edgeTerm
  rfl

/-- A tile's sums are the terms of its 1024 edges, read off the whole rows and the whole table. -/
theorem tile_eq (c : Dev nD) (t' : Fin 625) (n : Fin 10240) (f : Fin 128) :
    tile V c t'.val n f = ∑ j : Fin 1024, edgeTerm (V c main_v1) (V c main_v5) (V c main_v8) n f (edgeEquiv (t', j)) := by
  have ht : t'.val < cfg0.N := lt_of_lt_of_eq t'.isLt (show cfg0.N = 625 from N_0).symm
  unfold tile
  rw [dif_pos ht]
  unfold tileSum
  refine Finset.sum_congr rfl fun j _ => ?_
  unfold edgeTerm
  rw [dblk_apply V c ⟨t'.val, ht⟩ j (edgeEquiv (t', j)) (edgeEquiv_val t' j),
    sblk_apply V c ⟨t'.val, ht⟩ j (edgeEquiv (t', j)) (edgeEquiv_val t' j)]
  simp only [xblk_apply V c ⟨t'.val, ht⟩]

end Acc

open Acc in
/-- What the first region leaves in its output array: over all 640000 edges, the one-hot sums. -/
theorem gsum_value (c : Dev nD) (n : Fin 10240) (f : Fin 128) :
    (dat0 (F := Ideal) V c).arrAt 3 cfg0.N (ix2 n f) = gsK (V c main_v1) (V c main_v5) (V c main_v8) n f := by
  refine (congrFun (final V c) (ix2 n f)).trans ?_
  refine (outsAt_apply V c n f 624 h624).trans ?_
  rw [gsK_eq, sum_edges, Finset.sum_range]
  exact Finset.sum_congr rfl fun t' _ => tile_eq V c t' n f

end Cert.KernelIdeal.R0

end
-- ==== Proof.Region1_Pay.lean ====
/-
  The arithmetic of the second region's body at one entry of its block.

  The body loads a block of the node table, the matching block of gathered sums, the matching piece of the in-degree
  column, four 128×128 weight blocks and two bias rows, and stores one 1280×128 block. Here that stored block is read
  at entry (p, q) as sums over the 128 shared coordinates of products of the loaded blocks' entries: each of the four
  matrix products into a zero accumulator is a row-against-column sum, the two bias rows are repeated down the rows,
  the in-degree column is repeated across the columns, and a change of float format is the identity.
-/
import proofs.«408216_j9105330668111_1_alg».proof.Proof.Gen.KernelIdeal.Skeleton
import proofs.«408216_j9105330668111_1_alg».proof.Proof.LibColumn
import Idealize.ShloMosaic.Lib.Pipeline.Value
import Idealize.ShloMosaic.Lib.ValueLayout
import Idealize.ShloMosaic.PureOps.Ideal.Laws

noncomputable section

namespace Cert.KernelIdeal.R1

open Idealize.ShloMosaic Idealize.ShloMosaic.TcCoe Idealize.ShloMosaic.ValueIdx Idealize.SL.Sem
open Cert.KernelIdeal Cert.KernelIdeal.Gen

variable [Cert.KernelIdeal.Facts]

/-! ## One weight product at an entry -/

theorem mm_lhs_0 (i : S1280x128.Idx) (q : dot_S1280x128_S128x128_S1280x128_1_0_0_1_n_n.contr.Idx) :
    (dot_S1280x128_S128x128_S1280x128_1_0_0_1_n_n.lhsIdx i q 0).val = (i 0).val := by
  unfold DotDims.lhsIdx
  rw [dif_neg (show ¬(0 : Fin S1280x128.rank) ∈ dot_S1280x128_S128x128_S1280x128_1_0_0_1_n_n.lhsBatch by decide), dif_pos (show (0 : Fin S1280x128.rank) ∈ dot_S1280x128_S128x128_S1280x128_1_0_0_1_n_n.lhsNonContracting by decide)]
  rfl
theorem mm_lhs_1 (i : S1280x128.Idx) (q : dot_S1280x128_S128x128_S1280x128_1_0_0_1_n_n.contr.Idx) :
    (dot_S1280x128_S128x128_S1280x128_1_0_0_1_n_n.lhsIdx i q 1).val = (q ⟨0, by decide⟩).val :=
  dot_S1280x128_S128x128_S1280x128_1_0_0_1_n_n.lhsIdx_val_of_single rfl i q
theorem mm_rhs_0 (i : S1280x128.Idx) (q : dot_S1280x128_S128x128_S1280x128_1_0_0_1_n_n.contr.Idx) :
    (dot_S1280x128_S128x128_S1280x128_1_0_0_1_n_n.rhsIdx i q 0).val = (q ⟨0, by decide⟩).val :=
  dot_S1280x128_S128x128_S1280x128_1_0_0_1_n_n.rhsIdx_val_of_single rfl i q
theorem mm_rhs_1 (i : S1280x128.Idx) (q : dot_S1280x128_S128x128_S1280x128_1_0_0_1_n_n.contr.Idx) :
    (dot_S1280x128_S128x128_S1280x128_1_0_0_1_n_n.rhsIdx i q 1).val = (i 1).val := by
  unfold DotDims.rhsIdx
  rw [dif_neg (show ¬(1 : Fin S128x128.rank) ∈ dot_S1280x128_S128x128_S1280x128_1_0_0_1_n_n.rhsBatch by decide), dif_pos (show (1 : Fin S128x128.rank) ∈ dot_S1280x128_S128x128_S1280x128_1_0_0_1_n_n.rhsNonContracting by decide)]
  rfl

/-- A 1280×128 block times a 128×128 matrix, added into zero, at entry (p, q): row p of the block against column q of
    the matrix, summed over the 128 shared coordinates. -/
theorem mm_apply (X : FVec Ideal S1280x128 .bf16) (W : FVec Ideal S128x128 .bf16) (p : Fin 1280) (q : Fin 128) :
    matmul dot_S1280x128_S128x128_S1280x128_1_0_0_1_n_n none X W (constant S1280x128 .f32 0x00000000#32) (ix2 p q)
      = ∑ k : Fin 128, X (ix2 p k) * W (ix2 k q) := by
  simp only [matmul]
  rw [Ideal.matmul_constant_zero_apply, ← Equiv.sum_comp (contrEquiv1 dot_S1280x128_S128x128_S1280x128_1_0_0_1_n_n 128 rfl rfl).symm]
  refine Finset.sum_congr rfl fun k _ => ?_
  have hk := contrEquiv1_symm_val dot_S1280x128_S128x128_S1280x128_1_0_0_1_n_n 128 rfl rfl k
  have el : dot_S1280x128_S128x128_S1280x128_1_0_0_1_n_n.lhsIdx (ix2 p q) ((contrEquiv1 dot_S1280x128_S128x128_S1280x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S1280x128_S128x128_S1280x128_1_0_0_1_n_n.rhsIdx (ix2 p q) ((contrEquiv1 dot_S1280x128_S128x128_S1280x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-! ## The body's arithmetic at an entry -/

/-- The body's result at entry (p, q) of its block, from the blocks it loads: the node row against the first update
    block, plus the message row against the second update block, plus the update bias; the message row at g is the
    gathered-sum row against the first message block plus the in-degree times (the node row against the second message
    block plus the message bias). A change of float format is the identity on the extended reals, so the two roundings
    to the narrow format drop out. -/
theorem pay_apply (A G : Vec Ideal S1280x128 .f32) (C : Vec Ideal S1280x1 .f32) (Wm1 Wm2 Wu1 Wu2 : Vec Ideal S128x128 .bf16)
    (bm bu : Vec Ideal S1x128 .f32) (p : Fin 1280) (q : Fin 128) :
    k1_pay1 (F := Ideal) A G C Wm2 bm Wm1 Wu1 Wu2 bu (ix2 p q)
      = ((∑ k : Fin 128, A (ix2 p k) * Wu1 (ix2 k q))
          + ∑ g : Fin 128, ((∑ k : Fin 128, G (ix2 p k) * Wm1 (ix2 k g))
              + C (ix2 p 0) * ((∑ k : Fin 128, A (ix2 p k) * Wm2 (ix2 k g)) + bm (ix2 0 g))) * Wu2 (ix2 g q))
          + bu (ix2 0 q) := by
  unfold k1_pay1
  simp only [shapeCast_self]
  simp only [addf_apply, mulf_apply, mm_apply, truncf_apply, broadcastTo_1b_ab_apply, Cert.LibColumn.broadcastTo_a1_ab_apply]

end Cert.KernelIdeal.R1

end
-- ==== Proof.Region1.lean ====
/-
  What the second region leaves in its output array.

  The region runs its body at 8 grid points; point t reads rows 1280·t … 1280·t + 1279 of the node table, of the
  gathered sums and of the in-degree column, the whole of each weight block and bias row, and writes back rows
  1280·t … 1280·t + 1279 of the output. So what point t writes back is block t of ONE function of the arrays the region
  reads (the row expression `fin`), the 8 blocks tile the 10240 rows, and the output array ends holding that function.
-/
import proofs.«408216_j9105330668111_1_alg».proof.Proof.Gen.KernelIdeal.Frame
import proofs.«408216_j9105330668111_1_alg».proof.Proof.Spec
import proofs.«408216_j9105330668111_1_alg».proof.Proof.Region1_Pay
import Idealize.ShloMosaic.Lib.Pipeline.Value
import Idealize.ShloMosaic.PureOps.Ideal.Laws

noncomputable section

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-! ## Where the blocks sit -/

/-- Where each window's block sits at grid point t: the row-tiled windows (node table, gathered sums, in-degree column,
    output) at block row t, the weight and bias windows at their one block. -/
theorem block_index_closed : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem zero_offsets : (![0, 0] : Fin 2 → Nat) = fun _ => 0 := funext fun a => by fin_cases a <;> rfl

variable [Cert.KernelIdeal.Facts]
variable (V : (c : Dev nD) → (b : Ref sig .tc) → Buf (Elt Ideal) ((c : Thread nD τ).loc b))

/-- The same for whichever proof of the program's side conditions is in scope (any two are equal). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  block_index_closed

/-! ## Each input block as a part of its array -/

/-- Row p of the node table's block at point t is row 1280·t + p of the table. -/
theorem nodeBlock_apply (c : Dev nD) (t : Fin cfg1.N) (p : Fin 1280) (k : Fin 128) (n : Fin 10240)
    (hn : n.val = 1280 * t.val + p.val) :
    (iblk1 (F := Ideal) V c 0 t : S1280x128.Idx → EReal) (ix2 p k) = (V c main_v2 : S10240x128.Idx → EReal) (ix2 n k) := by
  obtain ⟨e0, e1, -⟩ := block_index t
  unfold iblk1
  rw [View.read_apply]
  show (V c main_v2 : S10240x128.Idx → EReal) _ = _
  congr 1
  funext a
  apply Fin.ext
  match a with
  | ⟨0, _⟩ => show win1_0.index t (0 : Fin 2) * 1280 + 1 * p.val = n.val; omega
  | ⟨1, _⟩ => show win1_0.index t (1 : Fin 2) * 128 + 1 * k.val = k.val; omega

/-- Row p of the gathered sums' block at point t is row 1280·t + p of the gathered sums. -/
theorem gatherBlock_apply (c : Dev nD) (t : Fin cfg1.N) (p : Fin 1280) (k : Fin 128) (n : Fin 10240)
    (hn : n.val = 1280 * t.val + p.val) :
    (iblk1 (F := Ideal) V c 1 t : S1280x128.Idx → EReal) (ix2 p k) = (V c main_v9 : S10240x128.Idx → EReal) (ix2 n k) := by
  obtain ⟨-, -, e0, e1, -⟩ := block_index t
  unfold iblk1
  rw [View.read_apply]
  show (V c main_v9 : S10240x128.Idx → EReal) _ = _
  congr 1
  funext a
  apply Fin.ext
  match a with
  | ⟨0, _⟩ => show win1_1.index t (0 : Fin 2) * 1280 + 1 * p.val = n.val; omega
  | ⟨1, _⟩ => show win1_1.index t (1 : Fin 2) * 128 + 1 * k.val = k.val; omega

/-- Entry p of the in-degree column's block at point t is entry 1280·t + p of the column. -/
theorem degBlock_apply (c : Dev nD) (t : Fin cfg1.N) (p : Fin 1280) (u : Fin 1) (n : Fin 10240)
    (hn : n.val = 1280 * t.val + p.val) :
    (iblk1 (F := Ideal) V c 2 t : S1280x1.Idx → EReal) (ix2 p u) = (V c main_v16 : S10240x1.Idx → EReal) (ix2 n u) := by
  obtain ⟨-, -, -, -, e0, e1, -⟩ := block_index t
  unfold iblk1
  rw [View.read_apply]
  show (V c main_v16 : S10240x1.Idx → EReal) _ = _
  congr 1
  funext a
  apply Fin.ext
  match a with
  | ⟨0, _⟩ => show win1_2.index t (0 : Fin 2) * 1280 + 1 * p.val = n.val; omega
  | ⟨1, _⟩ => show win1_2.index t (1 : Fin 2) * 1 + 1 * u.val = u.val; omega

/-- The first message block is the whole of its array at every point. -/
theorem wm1Block_apply (c : Dev nD) (t : Fin cfg1.N) (k g : Fin 128) :
    (iblk1 (F := Ideal) V c 3 t : S128x128.Idx → EReal) (ix2 k g) = (V c main_v18 : S128x128.Idx → EReal) (ix2 k g) := by
  obtain ⟨-, -, -, -, -, -, e0, e1, -⟩ := block_index t
  unfold iblk1
  rw [View.read_apply]
  show (V c main_v18 : S128x128.Idx → EReal) _ = _
  congr 1
  funext a
  apply Fin.ext
  match a with
  | ⟨0, _⟩ => show win1_3.index t (0 : Fin 2) * 128 + 1 * k.val = k.val; omega
  | ⟨1, _⟩ => show win1_3.index t (1 : Fin 2) * 128 + 1 * g.val = g.val; omega

/-- The second message block is the whole of its array at every point. -/
theorem wm2Block_apply (c : Dev nD) (t : Fin cfg1.N) (k g : Fin 128) :
    (iblk1 (F := Ideal) V c 4 t : S128x128.Idx → EReal) (ix2 k g) = (V c main_v20 : S128x128.Idx → EReal) (ix2 k g) := by
  obtain ⟨-, -, -, -, -, -, -, -, e0, e1, -⟩ := block_index t
  unfold iblk1
  rw [View.read_apply]
  show (V c main_v20 : S128x128.Idx → EReal) _ = _
  congr 1
  funext a
  apply Fin.ext
  match a with
  | ⟨0, _⟩ => show win1_4.index t (0 : Fin 2) * 128 + 1 * k.val = k.val; omega
  | ⟨1, _⟩ => show win1_4.index t (1 : Fin 2) * 128 + 1 * g.val = g.val; omega

/-- The first update block is the whole of its array at every point. -/
theorem wu1Block_apply (c : Dev nD) (t : Fin cfg1.N) (k g : Fin 128) :
    (iblk1 (F := Ideal) V c 5 t : S128x128.Idx → EReal) (ix2 k g) = (V c main_v22 : S128x128.Idx → EReal) (ix2 k g) := by
  obtain ⟨-, -, -, -, -, -, -, -, -, -, e0, e1, -⟩ := block_index t
  unfold iblk1
  rw [View.read_apply]
  show (V c main_v22 : S128x128.Idx → EReal) _ = _
  congr 1
  funext a
  apply Fin.ext
  match a with
  | ⟨0, _⟩ => show win1_5.index t (0 : Fin 2) * 128 + 1 * k.val = k.val; omega
  | ⟨1, _⟩ => show win1_5.index t (1 : Fin 2) * 128 + 1 * g.val = g.val; omega

/-- The second update block is the whole of its array at every point. -/
theorem wu2Block_apply (c : Dev nD) (t : Fin cfg1.N) (k g : Fin 128) :
    (iblk1 (F := Ideal) V c 6 t : S128x128.Idx → EReal) (ix2 k g) = (V c main_v24 : S128x128.Idx → EReal) (ix2 k g) := by
  obtain ⟨-, -, -, -, -, -, -, -, -, -, -, -, e0, e1, -⟩ := block_index t
  unfold iblk1
  rw [View.read_apply]
  show (V c main_v24 : S128x128.Idx → EReal) _ = _
  congr 1
  funext a
  apply Fin.ext
  match a with
  | ⟨0, _⟩ => show win1_6.index t (0 : Fin 2) * 128 + 1 * k.val = k.val; omega
  | ⟨1, _⟩ => show win1_6.index t (1 : Fin 2) * 128 + 1 * g.val = g.val; omega

/-- The message bias row's block is the whole row at every point. -/
theorem bmBlock_apply (c : Dev nD) (t : Fin cfg1.N) (u : Fin 1) (g : Fin 128) :
    (iblk1 (F := Ideal) V c 7 t : S1x128.Idx → EReal) (ix2 u g) = (V c main_v25 : S1x128.Idx → EReal) (ix2 u g) := by
  obtain ⟨-, -, -, -, -, -, -, -, -, -, -, -, -, -, e0, e1, -⟩ := block_index t
  unfold iblk1
  rw [View.read_apply]
  show (V c main_v25 : S1x128.Idx → EReal) _ = _
  congr 1
  funext a
  apply Fin.ext
  match a with
  | ⟨0, _⟩ => show win1_7.index t (0 : Fin 2) * 1 + 1 * u.val = u.val; omega
  | ⟨1, _⟩ => show win1_7.index t (1 : Fin 2) * 128 + 1 * g.val = g.val; omega

/-- The update bias row's block is the whole row at every point. -/
theorem buBlock_apply (c : Dev nD) (t : Fin cfg1.N) (u : Fin 1) (g : Fin 128) :
    (iblk1 (F := Ideal) V c 8 t : S1x128.Idx → EReal) (ix2 u g) = (V c main_v26 : S1x128.Idx → EReal) (ix2 u g) := by
  obtain ⟨-, -, -, -, -, -, -, -, -, -, -, -, -, -, -, -, e0, e1, -⟩ := block_index t
  unfold iblk1
  rw [View.read_apply]
  show (V c main_v26 : S1x128.Idx → EReal) _ = _
  congr 1
  funext a
  apply Fin.ext
  match a with
  | ⟨0, _⟩ => show win1_8.index t (0 : Fin 2) * 1 + 1 * u.val = u.val; omega
  | ⟨1, _⟩ => show win1_8.index t (1 : Fin 2) * 128 + 1 * g.val = g.val; omega

/-! ## What a point writes back -/

/-- The region's output array as one function of the arrays it reads, index by index. -/
abbrev finArr (c : Dev nD) : S10240x128.Idx → EReal := fun i =>
  fin (V c main_v2) (V c main_v9) (V c main_v16) (V c main_v18) (V c main_v20) (V c main_v22) (V c main_v24)
    (V c main_v25) (V c main_v26) (i 0) (i 1)

/-- The body's result at point t, from the input windows' blocks there. -/
abbrev blockOut (c : Dev nD) (t : Fin cfg1.N) : S1280x128.Idx → EReal :=
  k1_pay1 (F := Ideal) (iblk1 V c 0 t) (iblk1 V c 1 t) (iblk1 V c 2 t) (iblk1 V c 4 t) (iblk1 V c 7 t) (iblk1 V c 3 t)
    (iblk1 V c 5 t) (iblk1 V c 6 t) (iblk1 V c 8 t)

/-- Entry x of the body's result at point t is the row expression at array row 1280·t + (row of x), same column. -/
theorem blockOut_apply (c : Dev nD) (t : Fin cfg1.N) (x : S1280x128.Idx) (i : S10240x128.Idx)
    (h0 : (i 0).val = 1280 * t.val + (x 0).val) (h1 : (i 1).val = (x 1).val) :
    blockOut V c t x = finArr V c i := by
  obtain ⟨p, q, rfl⟩ : ∃ (p : Fin 1280) (q : Fin 128), x = ix2 p q := ⟨x 0, x 1, eq_ix2 x⟩
  obtain ⟨n, f, rfl⟩ : ∃ (n : Fin 10240) (f : Fin 128), i = ix2 n f := ⟨i 0, i 1, eq_ix2 i⟩
  have hn : n.val = 1280 * t.val + p.val := h0
  obtain rfl : f = q := Fin.ext h1
  show k1_pay1 (F := Ideal) (iblk1 V c 0 t) (iblk1 V c 1 t) (iblk1 V c 2 t) (iblk1 V c 4 t) (iblk1 V c 7 t) (iblk1 V c 3 t)
      (iblk1 V c 5 t) (iblk1 V c 6 t) (iblk1 V c 8 t) (ix2 p f)
    = fin (V c main_v2) (V c main_v9) (V c main_v16) (V c main_v18) (V c main_v20) (V c main_v22) (V c main_v24)
        (V c main_v25) (V c main_v26) n f
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) p f).trans ?_
  unfold fin
  simp only [nodeBlock_apply V c t p _ n hn, gatherBlock_apply V c t p _ n hn, degBlock_apply V c t p _ n hn,
    wm1Block_apply V c t, wm2Block_apply V c t, wu1Block_apply V c t, wu2Block_apply V c t, bmBlock_apply V c t,
    buBlock_apply V c t]

/-- What point t writes back is block t of the output array. -/
theorem flushed_eq (c : Dev nD) (t : Fin cfg1.N) :
    (dat1 (F := Ideal) V c).flushed 9 t = ((cfg1.win 9).blk t).view.read (Elt Ideal) (finArr V c) := by
  show (cfg1.win 9).cut (grid1.coords t) ((dat1 V c).after 9 t) = _
  rw [after1_9]
  unfold out1_9
  rw [View.canon_unit_zero zero_offsets]
  simp only [View.ld_unit_zero (S := S1280x128) zero_offsets, View.ld_unit_zero (S := S1280x1) zero_offsets,
    View.ld_unit_zero (S := S128x128) zero_offsets, View.ld_unit_zero (S := S1x128) zero_offsets]
  obtain ⟨-, -, -, -, -, -, -, -, -, -, -, -, -, -, -, -, -, -, e0, e1⟩ := block_index t
  funext j
  show blockOut V c t ((cfg1.win 9).xinj (grid1.coords t) j) = finArr V c (((cfg1.win 9).blk t).view.emb j)
  refine blockOut_apply V c t _ _ ?_ ?_
  · show win1_9.index t (0 : Fin 2) * 1280 + 1 * (j (0 : Fin 2)).val = 1280 * t.val + (j (0 : Fin 2)).val; omega
  · show win1_9.index t (1 : Fin 2) * 128 + 1 * (j (1 : Fin 2)).val = (j (1 : Fin 2)).val; omega

/-! ## The blocks cover the array -/

/-- An index of the output array is in point t's block iff each coordinate is in the block's range on its axis. -/
theorem mem_outBlock (t : Fin cfg1.N) (i : S10240x128.Idx) :
    i ∈ ((cfg1.win 9).blk t).view.set ↔ ∀ a : Fin 2, win1_9.index t a * S1280x128.size a ≤ (i a).val ∧ (i a).val < win1_9.index t a * S1280x128.size a + S1280x128.size a := by
  show i ∈ ((View.whole main_v27).slice (win1_9.rect t)).set ↔ _
  rw [View.set_slice_whole, Rect.mem_set_unit]
  exact Iff.rfl

/-- Row n of the output array is in the block of point n / 1280, which writes back. -/
theorem covered (i : S10240x128.Idx) :
    ∃ t : Fin cfg1.N, (cfg1.win 9).flush t = true ∧ i ∈ ((cfg1.win 9).blk t).view.set := by
  have hi0 : (i 0).val < 10240 := (i 0).isLt
  have hi1 : (i 1).val < 128 := (i 1).isLt
  obtain ⟨t, ht⟩ : ∃ t : Fin cfg1.N, t.val = (i 0).val / 1280 :=
    ⟨⟨(i 0).val / 1280, by rw [show cfg1.N = 8 from N_1]; omega⟩, rfl⟩
  obtain ⟨-, -, -, -, -, -, -, -, -, -, -, -, -, -, -, -, -, -, e0, e1⟩ := block_index t
  refine ⟨t, flush1_9 t, ?_⟩
  rw [mem_outBlock]
  intro a
  match a with
  | ⟨0, _⟩ => show win1_9.index t (0 : Fin 2) * 1280 ≤ (i 0).val ∧ (i 0).val < win1_9.index t (0 : Fin 2) * 1280 + 1280; omega
  | ⟨1, _⟩ => show win1_9.index t (1 : Fin 2) * 128 ≤ (i 1).val ∧ (i 1).val < win1_9.index t (1 : Fin 2) * 128 + 128; omega

/-! ## The array after the region -/

/-- What the second region leaves in its output array, row by row. -/
theorem region1_value (c : Dev nD) (n : Fin 10240) (f : Fin 128) :
    (dat1 (F := Ideal) V c).arrAt 9 cfg1.N (ix2 n f)
      = fin (V c main_v2) (V c main_v9) (V c main_v16) (V c main_v18) (V c main_v20) (V c main_v22) (V c main_v24)
          (V c main_v25) (V c main_v26) n f := by
  have h := (dat1 (F := Ideal) V c).arrAt_eq_of_cover 9 (finArr V c) (fun t _ => flushed_eq V c t) covered
  exact congrFun h (ix2 n f)

end Cert.KernelIdeal.R1

end
-- ==== Proof.KernelValue.lean ====
import proofs.«408216_j9105330668111_1_alg».proof.Proof.HostArrays
import proofs.«408216_j9105330668111_1_alg».proof.Proof.Counts
import proofs.«408216_j9105330668111_1_alg».proof.Proof.Region0Acc
import proofs.«408216_j9105330668111_1_alg».proof.Proof.Region1

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.Spec
open Cert.KernelIdeal.Host Cert.KernelIdeal.R0 Cert.KernelIdeal.R1

/-! ## Small facts used by the assembly -/

/-- Two numbers below `2^32` have the same 32-bit word exactly when they are equal: reading the word back as a number
    gives the number modulo `2^32`, which is the number itself. -/
theorem ofNat_inj_of_lt {a b : Nat} (ha : a < 2 ^ 32) (hb : b < 2 ^ 32) :
    BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h
    rw [h]

/-- A node's row of the zero-padded table is its own feature row: the row number is below 10000. -/
theorem padRow_row (feat : (Sh2 10000 128).Idx → EReal) (n : Fin 10000) (k : Fin 128) :
    padRow feat (row n) k = feat (ix2 n k) := by
  unfold padRow
  rw [dif_pos (show (row n).val < 10000 from n.isLt)]

/-- The one-hot sums over all edges, read at a node's row, are the sum of the source rows of the edges ending in that node,
    when the table is the zero-padded node table and the two word rows hold the node numbers `src`, `dst`.
    Edge by edge: the destination words agree exactly when the destination nodes do (both are below `2^32`), and the inner
    sum over all 10240 rows has a single non-zero term, the row of the source node. -/
theorem gsK_eq_gsum (feat : (Sh2 10000 128).Idx → EReal) (X : (Sh2 10240 128).Idx → EReal)
    (S D : (Sh2 1 640000).Idx → BitVec 32) (src dst : Fin 640000 → Fin 10000)
    (hX : ∀ (n' : Fin 10240) (k : Fin 128), X (ix2 n' k) = padRow feat n' k)
    (hS : ∀ e, S (ix2 0 e) = BitVec.ofNat 32 (src e).val)
    (hD : ∀ e, D (ix2 0 e) = BitVec.ofNat 32 (dst e).val)
    (n : Fin 10000) (k : Fin 128) :
    gsK X S D (row n) k = gsum feat src dst n k := by
  unfold gsK gsum
  refine Finset.sum_congr rfl fun e _ => ?_
  rw [hD e, hS e]
  have hword : ∀ (a : Fin 10000) (b : Fin 10240),
      BitVec.ofNat 32 a.val = BitVec.ofNat 32 b.val ↔ a.val = b.val := fun a b =>
    ofNat_inj_of_lt (by have := a.isLt; omega) (by have := b.isLt; omega)
  by_cases hd : dst e = n
  · have hd' : BitVec.ofNat 32 (dst e).val = BitVec.ofNat 32 (row n).val := (hword (dst e) (row n)).mpr (by rw [hd])
    rw [if_pos hd', if_pos hd]
    rw [Finset.sum_eq_single (row (src e))]
    · rw [if_pos rfl, hX, padRow_row]
    · intro n' _ hne
      rw [if_neg]
      intro h
      exact hne (Fin.ext ((hword (src e) n').mp h).symm)
    · intro h
      exact absurd (Finset.mem_univ _) h
  · have hd' : ¬ BitVec.ofNat 32 (dst e).val = BitVec.ofNat 32 (row n).val := fun h =>
      hd (Fin.ext ((hword (dst e) (row n)).mp h))
    rw [if_neg hd', if_neg hd]

variable [Cert.KernelIdeal.Facts]
variable (m : (ℓ : Loc nD τ sig) → Buf (Elt Ideal) ℓ) (ρ : Dev nD → PrngReg)

/-- The kernel's result array, read at node `n`, column `f`, is `outK` of its arguments, when the edge words are the node
    numbers `src`, `dst`. -/
theorem kernel_value (c : Dev nD) (src dst : Fin 640000 → Fin 10000)
    (hsrc : ∀ e, m ((c : Thread nD τ).loc main_arg1) (ix2 0 e) = BitVec.ofNat 32 (src e).val)
    (hdst : ∀ e, m ((c : Thread nD τ).loc main_arg1) (ix2 1 e) = BitVec.ofNat 32 (dst e).val)
    (n : Fin 10000) (f : Fin 128) :
    W11 (F := Ideal) m ρ c (Proc.devRef .tc main_v28) (ix2 n f)
      = outK (m ((c : Thread nD τ).loc main_arg0)) src dst (m ((c : Thread nD τ).loc main_arg2)) (m ((c : Thread nD τ).loc main_arg3))
          (m ((c : Thread nD τ).loc main_arg4)) (m ((c : Thread nD τ).loc main_arg5)) n f := by
  -- The result is the second region's output array at the node's row, and that array is `fin` of the nine arrays the
  -- region is entered with.
  rw [W11_out m ρ c n f, region1_value (V9 m ρ) c (row n) f]
  -- The gathered sums: the first region's output array, which holds the one-hot sums, which collapse to `gsum`.
  have hG : ∀ k : Fin 128, V9 (F := Ideal) m ρ c main_v9 (ix2 (row n) k)
      = gsum (m ((c : Thread nD τ).loc main_arg0)) src dst n k := by
    intro k
    rw [V9_gsum m ρ c, gsum_value (V5 m ρ) c (row n) k]
    exact gsK_eq_gsum (m ((c : Thread nD τ).loc main_arg0)) _ _ _ src dst
      (fun n' k' => V5_atom m ρ c n' k')
      (fun e => (V5_src m ρ c e).trans (hsrc e))
      (fun e => (V5_dst m ρ c e).trans (hdst e)) n k
  -- The node table at the node's row is the node's feature row.
  have hA : ∀ k : Fin 128, V9 (F := Ideal) m ρ c main_v2 (ix2 (row n) k)
      = m ((c : Thread nD τ).loc main_arg0) (ix2 n k) := by
    intro k
    rw [V9_atom m ρ c (row n) k, padRow_row]
  -- The four weight blocks are the upper and lower halves of the two weight matrices; the bias rows are the bias vectors;
  -- the in-degree column at the node's row is the number of edges ending in the node.
  have hWm1 : ∀ k g : Fin 128, V9 (F := Ideal) m ρ c main_v18 (ix2 k g)
      = m ((c : Thread nD τ).loc main_arg2) (ix2 (lo k) g) := fun k g => V9_wm1 m ρ c k g
  have hWm2 : ∀ k g : Fin 128, V9 (F := Ideal) m ρ c main_v20 (ix2 k g)
      = m ((c : Thread nD τ).loc main_arg2) (ix2 (hi k) g) := fun k g => V9_wm2 m ρ c k g
  have hWu1 : ∀ k g : Fin 128, V9 (F := Ideal) m ρ c main_v22 (ix2 k g)
      = m ((c : Thread nD τ).loc main_arg4) (ix2 (lo k) g) := fun k g => V9_wu1 m ρ c k g
  have hWu2 : ∀ k g : Fin 128, V9 (F := Ideal) m ρ c main_v24 (ix2 k g)
      = m ((c : Thread nD τ).loc main_arg4) (ix2 (hi k) g) := fun k g => V9_wu2 m ρ c k g
  have hbm : ∀ g : Fin 128, V9 (F := Ideal) m ρ c main_v25 (ix2 0 g)
      = m ((c : Thread nD τ).loc main_arg3) (ix1 g) := fun g => V9_bm m ρ c g
  have hbu : ∀ g : Fin 128, V9 (F := Ideal) m ρ c main_v26 (ix2 0 g)
      = m ((c : Thread nD τ).loc main_arg5) (ix1 g) := fun g => V9_bu m ρ c g
  have hC : V9 (F := Ideal) m ρ c main_v16 (ix2 (row n) 0) = cnt dst n := V9_cnt m ρ c dst hdst n
  -- With every array read replaced, the second region's row expression is `outK` term by term.
  unfold fin outK aggK dstTerm
  simp only [hA, hG, hWm1, hWm2, hWu1, hWu2, hbm, hbu, hC]

end Cert.KernelIdeal.KV

end
-- ==== Proof.lean ====
/-
  The certificate of one graph layer.  The reference computes, per edge `e`, the message
  `[feat[src e], feat[dst e]] · Wmsg + bmsg`, adds the messages of the edges that end in node `n`, and applies
  `[feat[n], agg[n]] · Wupd + bupd`.  The kernel gathers source rows and scatters them to destination rows by one-hot
  matrix products over tiles of 1024 edges (first region, accumulated over 625 grid points), counts each node's incoming
  edges on the host, and finishes row by row in a second region using
  `agg[n] = (∑ source rows into n) · Wmsg[:128] + count[n] · (feat[n] · Wmsg[128:] + bmsg)`.
  At the ideal instance the roundings to bf16 are the identity and a one-hot product is a selection, so the two results are
  one function of the arguments whenever the float inputs are finite (distributivity of a product over the edge sum needs
  finite factors) and every edge endpoint is a node number: `Spec.outK_eq_outR`.
  The three frames are the generated ones (the reference's is its run with the result dropped); the idealization rewrote
  nothing, so `preserves` is `True`.
-/
import proofs.«408216_j9105330668111_1_alg».proof.Defs
import proofs.«408216_j9105330668111_1_alg».proof.Proof.Gen.Kernel
import proofs.«408216_j9105330668111_1_alg».proof.Proof.Gen.Kernel.Skeleton
import proofs.«408216_j9105330668111_1_alg».proof.Proof.Gen.Kernel.Loops
import proofs.«408216_j9105330668111_1_alg».proof.Proof.Gen.Kernel.Launch
import proofs.«408216_j9105330668111_1_alg».proof.Proof.Gen.Kernel.Points
import proofs.«408216_j9105330668111_1_alg».proof.Proof.Gen.Kernel.Frame
import proofs.«408216_j9105330668111_1_alg».proof.Proof.Gen.KernelIdeal
import proofs.«408216_j9105330668111_1_alg».proof.Proof.Gen.KernelIdeal.Skeleton
import proofs.«408216_j9105330668111_1_alg».proof.Proof.Gen.KernelIdeal.Loops
import proofs.«408216_j9105330668111_1_alg».proof.Proof.Gen.KernelIdeal.Launch
import proofs.«408216_j9105330668111_1_alg».proof.Proof.Gen.KernelIdeal.Points
import proofs.«408216_j9105330668111_1_alg».proof.Proof.Gen.KernelIdeal.Frame
import proofs.«408216_j9105330668111_1_alg».proof.Proof.Gen.ReferenceIdeal
import proofs.«408216_j9105330668111_1_alg».proof.Proof.Gen.Pre_finite_inputs
import proofs.«408216_j9105330668111_1_alg».proof.Proof.Gen.ReferenceIdeal.Run
import proofs.«408216_j9105330668111_1_alg».proof.Proof.Gen.ReferenceIdeal.Read
import proofs.«408216_j9105330668111_1_alg».proof.Proof.Spec
import proofs.«408216_j9105330668111_1_alg».proof.Proof.Algebra
import proofs.«408216_j9105330668111_1_alg».proof.Proof.PreDecode
import proofs.«408216_j9105330668111_1_alg».proof.Proof.RefValue
import proofs.«408216_j9105330668111_1_alg».proof.Proof.KernelValue
import proofs.«408216_j9105330668111_1_alg».proof.Proof.ValueRun
import Idealize.ShloMosaic.Adequacy
import Idealize.ShloMosaic.Init

noncomputable section

namespace Cert.Proof

open Idealize.ShloMosaic Idealize.ShloMosaic.TcCoe Idealize.ShloMosaic.ValueIdx Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: the kernel's run leaves the last boundary's contents in its result buffer, the
    reference's its composed term; read at node `n`, column `f`, the first is `outK` and the second `outR` of the shared
    arguments, with the node numbers the precondition yields, and the two forms agree over the finite inputs. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v28),
    Cert.KernelIdeal.ValueRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v30_eq, a0, a1, a2, a3, a4, a5]
  obtain ⟨h0, h2, h3, h4, h5, src, dst, hsrc, hdst⟩ := Cert.PreDecode.of_pre _ _ _ _ _ _ (hpre c)
  funext i
  obtain ⟨n, f, rfl⟩ : ∃ (n : Fin 10000) (f : Fin 128), i = ix2 n f := ⟨i 0, i 1, eq_ix2 i⟩
  rw [Cert.RefValue.ref_value _ _ _ _ _ _ src dst hsrc hdst n f]
  refine (Cert.Spec.outK_eq_outR _ src dst _ _ _ _ h0 h2 h3 h4 h5 n f).symm.trans ?_
  exact (Cert.KernelIdeal.KV.kernel_value m ρ c src dst hsrc hdst n f).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
